-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S129x128 : Shape := ⟨2, ![129, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S129x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S129x128 .f32 := Host.absf main_arg7
  let main_cst_10 : FVec F S_ .f32 := constant S_ .f32 0x7F800000#32
  let main_v30 : FVec F S129x128 .f32 := broadcastInDim S129x128 ![] bcast_S_S129x128 main_cst_10
  let main_v31 : IVec S129x128 1 := cmpf .olt main_v29 main_v30
  let main_c_11 : IVec S_ 1 := constantI S_ 1 1#1
  let main_v32 : IVec S_ 1 := (fun x v => Host.reduce IntOp.andi x v reducesTo_S129x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : FVec F S50000x3 .f32) (main_arg2 : IVec S2x800000 32) (main_arg3 : FVec F S129x128 .f32) (main_arg4 : FVec F S128 .f32) (main_arg5 : FVec F S128x64 .f32) (main_arg6 : FVec F S64 .f32) (main_arg7 : FVec F S129x128 .f32) (main_arg8 : FVec F S128 .f32) (main_arg9 : FVec F S128x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S129x128 .f32 := Host.absf main_arg3
  let main_cst_2 : FVec F S_ .f32 := constant S_ .f32 0x7F800000#32
  let main_v10 : FVec F S129x128 .f32 := broadcastInDim S129x128 ![] bcast_S_S129x128 main_cst_2
  let main_v11 : IVec S129x128 1 := cmpf .olt main_v9 main_v10
  let main_c_3 : IVec S_ 1 := constantI S_ 1 1#1
  let main_v12 : IVec S_ 1 := (fun x v => Host.reduce IntOp.andi x v reducesTo_S129x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S129x128 : Shape := ⟨2, ![129, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x129 : Shape := ⟨2, ![800000, 129]⟩
abbrev S4000x129 : Shape := ⟨2, ![4000, 129]⟩
abbrev S4000x3 : Shape := ⟨2, ![4000, 3]⟩
abbrev S4000x64 : Shape := ⟨2, ![4000, 64]⟩
abbrev S4000x128 : Shape := ⟨2, ![4000, 128]⟩
abbrev S1x128 : Shape := ⟨2, ![1, 128]⟩
abbrev S1x64 : Shape := ⟨2, ![1, 64]⟩
abbrev S4000x1 : Shape := ⟨2, ![4000, 1]⟩
abbrev S1x1 : Shape := ⟨2, ![1, 1]⟩

abbrev nBuf : Space → Nat
  | .hbm => 67
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x3, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x3, .f32⟩
  | .hbm, ⟨51, _⟩ => ⟨S800000x3, .f32⟩
  | .hbm, ⟨52, _⟩ => ⟨S800000x3, .f32⟩
  | .hbm, ⟨53, _⟩ => ⟨S_, .f32⟩
  | .hbm, ⟨54, _⟩ => ⟨S800000, .f32⟩
  | .hbm, ⟨55, _⟩ => ⟨S800000x1, .f32⟩
  | .hbm, ⟨56, _⟩ => ⟨S800000x129, .f32⟩
  | .hbm, ⟨57, _⟩ => ⟨S800000x64, .f32⟩
  | .hbm, ⟨58, _⟩ => ⟨S800000x3, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S50000x3, .f32⟩
  | .hbm, ⟨65, _⟩ => ⟨S800000x1, .i32⟩
  | .hbm, ⟨66, _⟩ => ⟨S50000x3, .f32⟩
  | .local _ .vmem, ⟨0, _⟩ => ⟨S4000x129, .f32⟩
  | .local _ .vmem, ⟨1, _⟩ => ⟨S4000x129, .f32⟩
  | .local _ .vmem, ⟨2, _⟩ => ⟨S4000x3, .f32⟩
  | .local _ .vmem, ⟨3, _⟩ => ⟨S4000x3, .f32⟩
  | .local _ .vmem, ⟨4, _⟩ => ⟨S129x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S129x128, .f32⟩
  | .local _ .vmem, ⟨9, _⟩ => ⟨S128, .f32⟩
  | .local _ .vmem, ⟨10, _⟩ => ⟨S128x1, .f32⟩
  | .local _ .vmem, ⟨11, _⟩ => ⟨S1, .f32⟩
  | .local _ .vmem, ⟨12, _⟩ => ⟨S4000x64, .f32⟩
  | .local _ .vmem, ⟨13, _⟩ => ⟨S4000x64, .f32⟩
  | .local _ .vmem, ⟨14, _⟩ => ⟨S4000x3, .f32⟩
  | .local _ .vmem, ⟨15, _⟩ => ⟨S4000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S129x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  inb_S4000x129_S4000x129_0_0 : ∀ a, (![0, 0] : Fin 2 → Nat) a + S4000x129.size a ≤ S4000x129.size a
  h_S4000x129 : 0 < S4000x129.numel
  shapeCasts_S4000x129_S4000x129 : S4000x129.ShapeCasts S4000x129
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  bitsLt_bf16_f32 : FTy.bits .bf16 < FTy.bits .f32
  inb_S129x128_S129x128_0_0 : ∀ a, (![0, 0] : Fin 2 → Nat) a + S129x128.size a ≤ S129x128.size a
  h_S129x128 : 0 < S129x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x3 : S4000x1.Broadcasts S4000x3
  bcast_S_S50000x64 : S_.BroadcastsInDim S50000x64 (![] : Fin 0 → Fin S50000x64.rank)
  bcast_S_S50000x3 : S_.BroadcastsInDim S50000x3 (![] : Fin 0 → Fin S50000x3.rank)
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S4000x129_S129x128_S4000x128_1_0_0_1_n_n_wf : DotDims.WF S4000x129 S129x128 S4000x128 [1] [0] [0] [1] [] []
  dot_S4000x128_S128x64_S4000x64_1_0_0_1_n_n_wf : DotDims.WF S4000x128 S128x64 S4000x64 [1] [0] [0] [1] [] []
  dot_S4000x128_S128x1_S4000x1_1_0_0_1_n_n_wf : DotDims.WF S4000x128 S128x1 S4000x1 [1] [0] [0] [1] [] []
  scatter_S50000x64_S800000x1_S800000x64_1_0_0_1_wf : ScatterDims.WF S50000x64 S800000x1 S800000x64 [1] [0] [0] 1
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x129.size a ≤ S800000x129.size a
  hwx0_0 : ∀ i : grid0.Coords, EltTy.bits .f32 = 32 ∨ (Rect.block (s := S800000x129) S4000x129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S800000x3.size a
  hwx0_1 : ∀ i : grid0.Coords, EltTy.bits .f32 = 32 ∨ (Rect.block (s := S800000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x128.size a ≤ S129x128.size a
  hwx0_2 : ∀ i : grid0.Coords, EltTy.bits .f32 = 32 ∨ (Rect.block (s := S129x128) S129x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S129x128.size a ≤ S129x128.size a
  hwx0_6 : ∀ i : grid0.Coords, EltTy.bits .f32 = 32 ∨ (Rect.block (s := S129x128) S129x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S800000x64.size a
  hwx0_10 : ∀ i : grid0.Coords, EltTy.bits .f32 = 32 ∨ (Rect.block (s := S800000x64) S4000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S800000x3.size a
  hwx0_11 : ∀ i : grid0.Coords, EltTy.bits .f32 = 32 ∨ (Rect.block (s := S800000x3) S4000x3.size (cc0_transform_11 i) (hinb0_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x129_S129x128_S4000x128_1_0_0_1_n_n : DotDims S4000x129 S129x128 S4000x128 where
  lhsContracting := [1]
  rhsContracting := [0]
  lhsNonContracting := [0]
  rhsNonContracting := [1]
  lhsBatch := []
  rhsBatch := []
  wf := dot_S4000x129_S129x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v36) S4000x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S129x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S129x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37_0) S4000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v37_1) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S129x128 : Shape := ⟨2, ![129, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S800000x128 : Shape := ⟨2, ![800000, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x3, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x3, .f32⟩
  | .hbm, ⟨33, _⟩ => ⟨S800000x3, .f32⟩
  | .hbm, ⟨34, _⟩ => ⟨S800000x3, .f32⟩
  | .hbm, ⟨35, _⟩ => ⟨S_, .f32⟩
  | .hbm, ⟨36, _⟩ => ⟨S800000, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x129, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S800000x128, .f32⟩
  | .hbm, ⟨68, _⟩ => ⟨S800000x128, .f32⟩
  | .hbm, ⟨69, _⟩ => ⟨S800000x128, .f32⟩
  | .hbm, ⟨70, _⟩ => ⟨S800000x64, .f32⟩
  | .hbm, ⟨71, _⟩ => ⟨S1x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S800000x128, .f32⟩
  | .hbm, ⟨79, _⟩ => ⟨S1x128, .f32⟩
  | .hbm, ⟨80, _⟩ => ⟨S800000x128, .f32⟩
  | .hbm, ⟨81, _⟩ => ⟨S800000x128, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S800000x128, .f32⟩
  | .hbm, ⟨91, _⟩ => ⟨S800000x1, .f32⟩
  | .hbm, ⟨92, _⟩ => ⟨S1x1, .f32⟩
  | .hbm, ⟨93, _⟩ => ⟨S800000x1, .f32⟩
  | .hbm, ⟨94, _⟩ => ⟨S800000x1, .f32⟩
  | .hbm, ⟨95, _⟩ => ⟨S800000x3, .f32⟩
  | .hbm, ⟨96, _⟩ => ⟨S800000x3, .f32⟩
  | .hbm, ⟨97, _⟩ => ⟨S_, .f32⟩
  | .hbm, ⟨98, _⟩ => ⟨S50000x3, .f32⟩
  | .hbm, ⟨99, _⟩ => ⟨S800000x1, .i32⟩
  | .hbm, ⟨100, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_8 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x128_S800000x128_1_0_0_1_n_n_wf : DotDims.WF S800000x129 S129x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x128_S800000x128_1_0_0_1_n_n : DotDims S800000x129 S129x128 S800000x128 where
  lhsContracting := [1]
  rhsContracting := [0]
  lhsNonContracting := [0]
  rhsNonContracting := [1]
  lhsBatch := []
  rhsBatch := []
  wf := dot_S800000x129_S129x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.FrameKitK.lean ====
import proofs.«146068_j82867099009204_1_alg».proof.Proof.Gen.Kernel.Launch
import proofs.«146068_j82867099009204_1_alg».proof.Proof.Gen.Kernel.Points
import Idealize.ShloMosaic.Lib.Pipeline.FrameBody
import Idealize.ShloMosaic.Lib.Pipeline.FrameSuffix

/-! # The host program around the one kernel region

@main is 46 host operations (the four gathers of node rows by edge end, the squared distance and the concatenation
into the combined edge features), the region, and 8 host operations (the two scatter-additions by target node).
This module says what the region finds in each buffer (`V`: the contents after the host operations before it), that
no host operation on either side writes an argument array, what a window's block at a grid point is (`iblk`), that
an input window's staging buffer holds that block at every point, and that a run to the frame post is the frame
claim. It is stated at any float instance. -/

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The contents the region finds -/

/-- Core `c`'s buffer contents when the region is entered: the launch contents after the 46 host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-! ## The argument arrays are written by no host operation -/

/-- A buffer no host operation before the region writes is found by the region as launched. -/
local macro "kept_before" : tactic => `(tactic|
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide))))

set_option maxHeartbeats 1000000 in
theorem V_main_arg0 (c : Dev nD) : V m c main_arg0 = m ((c : Thread nD τ).loc main_arg0) := by kept_before
set_option maxHeartbeats 1000000 in
theorem V_main_arg1 (c : Dev nD) : V m c main_arg1 = m ((c : Thread nD τ).loc main_arg1) := by kept_before
set_option maxHeartbeats 1000000 in
theorem V_main_arg2 (c : Dev nD) : V m c main_arg2 = m ((c : Thread nD τ).loc main_arg2) := by kept_before
set_option maxHeartbeats 1000000 in
theorem V_main_arg3 (c : Dev nD) : V m c main_arg3 = m ((c : Thread nD τ).loc main_arg3) := by kept_before
set_option maxHeartbeats 1000000 in
theorem V_main_arg4 (c : Dev nD) : V m c main_arg4 = m ((c : Thread nD τ).loc main_arg4) := by kept_before
set_option maxHeartbeats 1000000 in
theorem V_main_arg5 (c : Dev nD) : V m c main_arg5 = m ((c : Thread nD τ).loc main_arg5) := by kept_before
set_option maxHeartbeats 1000000 in
theorem V_main_arg6 (c : Dev nD) : V m c main_arg6 = m ((c : Thread nD τ).loc main_arg6) := by kept_before
set_option maxHeartbeats 1000000 in
theorem V_main_arg7 (c : Dev nD) : V m c main_arg7 = m ((c : Thread nD τ).loc main_arg7) := by kept_before
set_option maxHeartbeats 1000000 in
theorem V_main_arg8 (c : Dev nD) : V m c main_arg8 = m ((c : Thread nD τ).loc main_arg8) := by kept_before
set_option maxHeartbeats 1000000 in
theorem V_main_arg9 (c : Dev nD) : V m c main_arg9 = m ((c : Thread nD τ).loc main_arg9) := by kept_before
set_option maxHeartbeats 1000000 in
theorem V_main_arg10 (c : Dev nD) : V m c main_arg10 = m ((c : Thread nD τ).loc main_arg10) := by kept_before

/-- A buffer that no host operation after the region writes and that is no window's array ends as the region found it. -/
local macro "kept_after" b:term : tactic => `(tactic| (
  unfold Pipeline.afterTail₀
  rw [StableHlo.after_of_forall_not_mem (b := Proc.devRef .tc $b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ _ (V0 _ _) _ $b (by exact (by decide : ∀ w, Pipeline.arrRef spec0 w ≠ $b))]))

section Tail
variable (dats : (p : Fin 1) → (c : Dev nD) → Dat τ (Elt F) Unit ℕ (UR sig nD τ) ℕ (cfgs p) c) (c : Dev nD)

theorem W_main_arg0 : Pipeline.afterTail₀ cfgs dats 0 (V0 m) [hostOps1] c main_arg0 = m ((c : Thread nD τ).loc main_arg0) := by
  kept_after main_arg0; exact V_main_arg0 m c
theorem W_main_arg1 : Pipeline.afterTail₀ cfgs dats 0 (V0 m) [hostOps1] c main_arg1 = m ((c : Thread nD τ).loc main_arg1) := by
  kept_after main_arg1; exact V_main_arg1 m c
theorem W_main_arg2 : Pipeline.afterTail₀ cfgs dats 0 (V0 m) [hostOps1] c main_arg2 = m ((c : Thread nD τ).loc main_arg2) := by
  kept_after main_arg2; exact V_main_arg2 m c

end Tail

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is the region-entry contents and whose body
    leaves the block in place. -/
local macro "input_block" w:term : tactic => `(tactic| (
  intro dat hA hafter t d
  exact (dat.before_in_eq_fetched $w rfl (fun _ => rfl) (fun _ _ _ => rfl) (fun t => by rw [hafter]; unfold Dat.blockOf iblk; rw [hA]; try rfl) t d).trans
    (by unfold Dat.fetched Dat.blockOf iblk; rw [hA]; try rfl)))

section Inputs
variable {c : Dev nD}

theorem before0_0_of : ∀ (dat : Dat τ (Elt F) Unit ℕ (UR sig nD τ) ℕ cfg0 c) (hA : dat.A 0 = V m c (Pipeline.arrRef spec0 0))
    (hafter : ∀ t, dat.after 0 t = iblk m c 0 t) (t : Fin cfg0.N) (d), dat.before 0 t d = iblk m c 0 t := by input_block 0
theorem before0_1_of : ∀ (dat : Dat τ (Elt F) Unit ℕ (UR sig nD τ) ℕ cfg0 c) (hA : dat.A 1 = V m c (Pipeline.arrRef spec0 1))
    (hafter : ∀ t, dat.after 1 t = iblk m c 1 t) (t : Fin cfg0.N) (d), dat.before 1 t d = iblk m c 1 t := by input_block 1
theorem before0_2_of : ∀ (dat : Dat τ (Elt F) Unit ℕ (UR sig nD τ) ℕ cfg0 c) (hA : dat.A 2 = V m c (Pipeline.arrRef spec0 2))
    (hafter : ∀ t, dat.after 2 t = iblk m c 2 t) (t : Fin cfg0.N) (d), dat.before 2 t d = iblk m c 2 t := by input_block 2
theorem before0_3_of : ∀ (dat : Dat τ (Elt F) Unit ℕ (UR sig nD τ) ℕ cfg0 c) (hA : dat.A 3 = V m c (Pipeline.arrRef spec0 3))
    (hafter : ∀ t, dat.after 3 t = iblk m c 3 t) (t : Fin cfg0.N) (d), dat.before 3 t d = iblk m c 3 t := by input_block 3
theorem before0_4_of : ∀ (dat : Dat τ (Elt F) Unit ℕ (UR sig nD τ) ℕ cfg0 c) (hA : dat.A 4 = V m c (Pipeline.arrRef spec0 4))
    (hafter : ∀ t, dat.after 4 t = iblk m c 4 t) (t : Fin cfg0.N) (d), dat.before 4 t d = iblk m c 4 t := by input_block 4
theorem before0_5_of : ∀ (dat : Dat τ (Elt F) Unit ℕ (UR sig nD τ) ℕ cfg0 c) (hA : dat.A 5 = V m c (Pipeline.arrRef spec0 5))
    (hafter : ∀ t, dat.after 5 t = iblk m c 5 t) (t : Fin cfg0.N) (d), dat.before 5 t d = iblk m c 5 t := by input_block 5
theorem before0_6_of : ∀ (dat : Dat τ (Elt F) Unit ℕ (UR sig nD τ) ℕ cfg0 c) (hA : dat.A 6 = V m c (Pipeline.arrRef spec0 6))
    (hafter : ∀ t, dat.after 6 t = iblk m c 6 t) (t : Fin cfg0.N) (d), dat.before 6 t d = iblk m c 6 t := by input_block 6
theorem before0_7_of : ∀ (dat : Dat τ (Elt F) Unit ℕ (UR sig nD τ) ℕ cfg0 c) (hA : dat.A 7 = V m c (Pipeline.arrRef spec0 7))
    (hafter : ∀ t, dat.after 7 t = iblk m c 7 t) (t : Fin cfg0.N) (d), dat.before 7 t d = iblk m c 7 t := by input_block 7
theorem before0_8_of : ∀ (dat : Dat τ (Elt F) Unit ℕ (UR sig nD τ) ℕ cfg0 c) (hA : dat.A 8 = V m c (Pipeline.arrRef spec0 8))
    (hafter : ∀ t, dat.after 8 t = iblk m c 8 t) (t : Fin cfg0.N) (d), dat.before 8 t d = iblk m c 8 t := by input_block 8
theorem before0_9_of : ∀ (dat : Dat τ (Elt F) Unit ℕ (UR sig nD τ) ℕ cfg0 c) (hA : dat.A 9 = V m c (Pipeline.arrRef spec0 9))
    (hafter : ∀ t, dat.after 9 t = iblk m c 9 t) (t : Fin cfg0.N) (d), dat.before 9 t d = iblk m c 9 t := by input_block 9

end Inputs

/-! ## The frame claim from the frame run -/

/-- A run to the frame post (every window's array at what the proof data computes, every other unscoped buffer as the
    operations after the region leave it) ends with every argument array as launched: none is an output window's
    array, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).1 4).trans (((dats 0 c).arrAt_in 4 rfl _).trans ((hA c 4).trans (V_main_arg5 m c))),
    ((h c).1 5).trans (((dats 0 c).arrAt_in 5 rfl _).trans ((hA c 5).trans (V_main_arg6 m c))),
    ((h c).1 6).trans (((dats 0 c).arrAt_in 6 rfl _).trans ((hA c 6).trans (V_main_arg7 m c))),
    ((h c).1 7).trans (((dats 0 c).arrAt_in 7 rfl _).trans ((hA c 7).trans (V_main_arg8 m c))),
    ((h c).1 8).trans (((dats 0 c).arrAt_in 8 rfl _).trans ((hA c 8).trans (V_main_arg9 m c))),
    ((h c).1 9).trans (((dats 0 c).arrAt_in 9 rfl _).trans ((hA c 9).trans (V_main_arg10 m c)))⟩) h

end Cert.Kernel.Fr

end
-- ==== Proof.BodyK.lean ====
import proofs.«146068_j82867099009204_1_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

/-! # One grid point of the edge kernel

At a grid point the kernel body reads a block of 4000 edges' combined features and relative positions and the two
small networks' weights, and stores two blocks: the 4000 edges' feature messages (`outX`) and position updates
(`outP`). Each store covers its whole buffer, so what a buffer holds afterwards is the stored value itself, a pure
function of the blocks read. This module states that function and the body's triple, at any float instance. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-buffer rectangles the body reads and writes -/

abbrev rC : Rect S4000x129 := Rect.unit (s := S4000x129) ![0, 0] S4000x129.size inb_S4000x129_S4000x129_0_0
abbrev rR : Rect S4000x3 := Rect.unit (s := S4000x3) ![0, 0] S4000x3.size inb_S4000x3_S4000x3_0_0
abbrev rW1 : Rect S129x128 := Rect.unit (s := S129x128) ![0, 0] S129x128.size inb_S129x128_S129x128_0_0
abbrev rB1 : Rect S128 := Rect.unit (s := S128) ![0] S128.size inb_S128_S128_0
abbrev rW2x : Rect S128x64 := Rect.unit (s := S128x64) ![0, 0] S128x64.size inb_S128x64_S128x64_0_0
abbrev rB2x : Rect S64 := Rect.unit (s := S64) ![0] S64.size inb_S64_S64_0
abbrev rW2p : Rect S128x1 := Rect.unit (s := S128x1) ![0, 0] S128x1.size inb_S128x1_S128x1_0_0
abbrev rB2p : Rect S1 := Rect.unit (s := S1) ![0] S1.size inb_S1_S1_0
abbrev rX : Rect S4000x64 := Rect.unit (s := S4000x64) ![0, 0] S4000x64.size inb_S4000x64_S4000x64_0_0

/-! ## What the body leaves in the two output buffers -/

/-- The message block: the feature network applied to the block of combined features. -/
def outX (x0 : Vec F S4000x129 .f32) (x2 : Vec F S129x128 .f32) (x3 : Vec F S128 .f32) (x4 : Vec F S128x64 .f32) (x5 : Vec F S64 .f32) :
    Vec F S4000x64 .f32 :=
  View.canon [⟨rX, k0_pay4 (View.ld x0 rC) (View.ld x2 rW1) (View.ld x3 rB1) (View.ld x4 rW2x) (View.ld x5 rB2x)⟩]

/-- The position-update block: the position network's scalar per edge times the edge's relative position. -/
def outP (x0 : Vec F S4000x129 .f32) (x1 : Vec F S4000x3 .f32) (x6 : Vec F S129x128 .f32) (x7 : Vec F S128 .f32) (x8 : Vec F S128x1 .f32) (x9 : Vec F S1 .f32) :
    Vec F S4000x3 .f32 :=
  View.canon [⟨rR, k0_pay1 (k0_pay2 (View.ld x1 rR)) (k0_pay5 (View.ld x0 rC) (View.ld x6 rW1) (View.ld x7 rB1) (View.ld x8 rW2p)) (View.ld x9 rB2p)⟩]

/-- One whole-buffer store covers the buffer. -/
theorem coverX (p0 : Vec F S4000x64 .f32) (y : S4000x64.Idx) :
    ∃ pc ∈ ([⟨rX, p0⟩] : List (View.Piece (Elt F) S4000x64 .f32)), y ∈ pc.1.set :=
  View.cover_of_tiled [⟨rX, p0⟩] S4000x64.size (by rfl) y
theorem coverP (p0 : Vec F S4000x3 .f32) (y : S4000x3.Idx) :
    ∃ pc ∈ ([⟨rR, p0⟩] : List (View.Piece (Elt F) S4000x3 .f32)), y ∈ pc.1.set :=
  View.cover_of_tiled [⟨rR, p0⟩] S4000x3.size (by rfl) y

/-! ## The body's triple -/

set_option maxHeartbeats 4000000 in
/-- The body on whole staging memrefs — the ten inputs' at contents `x0 … x9`, the two outputs' at anything — runs to a
    continuation that holds the inputs' as they were and the outputs' at `outX` and `outP` of the inputs'. -/
theorem sound_kernel (c : Dev nD) (E : Set ℕ) (i : grid0.Coords)
    (arg1 : Memref sig .tc .vmem S4000x129 .f32) (harg1 : arg1.IsWhole) (arg2 : Memref sig .tc .vmem S4000x3 .f32) (harg2 : arg2.IsWhole)
    (arg3 : Memref sig .tc .vmem S129x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S129x128 .f32) (harg7 : arg7.IsWhole) (arg8 : Memref sig .tc .vmem S128 .f32) (harg8 : arg8.IsWhole)
    (arg9 : Memref sig .tc .vmem S128x1 .f32) (harg9 : arg9.IsWhole) (arg10 : Memref sig .tc .vmem S1 .f32) (harg10 : arg10.IsWhole)
    (arg11 : Memref sig .tc .vmem S4000x64 .f32) (harg11 : arg11.IsWhole) (arg12 : Memref sig .tc .vmem S4000x3 .f32) (harg12 : arg12.IsWhole)
    (x0 : Vec F S4000x129 .f32) (x1 : Vec F S4000x3 .f32) (x2 : Vec F S129x128 .f32) (x3 : Vec F S128 .f32) (x4 : Vec F S128x64 .f32)
    (x5 : Vec F S64 .f32) (x6 : Vec F S129x128 .f32) (x7 : Vec F S128 .f32) (x8 : Vec F S128x1 .f32) (x9 : Vec F S1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (outX x0 x2 x3 x4 x5)
            ∗ owns (c : Thread nD τ) arg12 fullShare (outP x0 x1 x6 x7 x8 x9)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10 arg11 harg11 arg12 harg12) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%dX, %fX, -, HX⟩, ⟨%dP, %fP, -, HP⟩, Hk⟩
  subst hf0 hf1 hf2 hf3 hf4 hf5 hf6 hf7 hf8 hf9
  -- every load reads its whole buffer and leaves it as it was; each of the two stores overwrites its whole buffer
  sl_exec
  sl_step
  iapply Hk
  -- the ten inputs are returned unchanged
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  -- an output buffer, read back after a store that covers it, holds the canonical form of that store
  isplitl [HX]
  · iexists _; isplitr
    swap; · iexact HX
    ipureintro
    exact View.read_writes_eq_canon _ _ _ (coverX _)
  iexists _; isplitr
  swap; · iexact HP
  ipureintro
  -- the stored value names the part's two results; opened, they are the payloads over the blocks read
  sl_unfold_words
  exact View.read_writes_eq_canon _ _ _ (coverP _)

end Cert.Kernel.Fr

end
-- ==== Proof.RunK.lean ====
import proofs.«146068_j82867099009204_1_alg».proof.Proof.FrameKitK
import proofs.«146068_j82867099009204_1_alg».proof.Proof.BodyK

/-! # The run of the whole program

The proof data of the one pipeline: each array as the region finds it; after the body at a grid point each input
window's buffer still at its block and the two output windows' buffers at the message block and the position-update
block of that point's input blocks. With the body's triple at every point this gives the run of @main: it terminates
without a fault, each output array ends as the blocks written back, and every other buffer as the host operations
after the region leave it. The frame claim follows. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The message block of point `t`: the feature network on the point's block of combined features. -/
abbrev blockX (c : Dev nD) (t : Fin cfg0.N) : Vec F S4000x64 .f32 :=
  outX (iblk m c 0 t) (iblk m c 2 t) (iblk m c 3 t) (iblk m c 4 t) (iblk m c 5 t)
/-- The position-update block of point `t`. -/
abbrev blockP (c : Dev nD) (t : Fin cfg0.N) : Vec F S4000x3 .f32 :=
  outP (iblk m c 0 t) (iblk m c 1 t) (iblk m c 6 t) (iblk m c 7 t) (iblk m c 8 t) (iblk m c 9 t)

/-- The arrays as the region finds them; after the body at point `t` each input's buffer at its block and each
    output's at its block of the input blocks; nothing else kept between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => blockX m c t
    | ⟨11, _⟩ => blockP m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = blockX m c t := by dsimp only [dats]
theorem after0_11 (c : Dev nD) (t : Fin cfg0.N) : (dats m 0 c).after 11 t = blockP m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the pipeline holds what
    the proof data computes (an output array: the blocks written back) and every other unscoped buffer what the host
    operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.FrameKitKI.lean ====
import proofs.«146068_j82867099009204_1_alg».proof.Proof.Gen.KernelIdeal.Launch
import proofs.«146068_j82867099009204_1_alg».proof.Proof.Gen.KernelIdeal.Points
import Idealize.ShloMosaic.Lib.Pipeline.FrameBody
import Idealize.ShloMosaic.Lib.Pipeline.FrameSuffix

/-! # The host program around the one kernel region

@main is 46 host operations (the four gathers of node rows by edge end, the squared distance and the concatenation
into the combined edge features), the region, and 8 host operations (the two scatter-additions by target node).
This module says what the region finds in each buffer (`V`: the contents after the host operations before it), that
no host operation on either side writes an argument array, what a window's block at a grid point is (`iblk`), that
an input window's staging buffer holds that block at every point, and that a run to the frame post is the frame
claim. It is stated at any float instance. -/

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The contents the region finds -/

/-- Core `c`'s buffer contents when the region is entered: the launch contents after the 46 host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-! ## The argument arrays are written by no host operation -/

/-- A buffer no host operation before the region writes is found by the region as launched. -/
local macro "kept_before" : tactic => `(tactic|
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide))))

set_option maxHeartbeats 1000000 in
theorem V_main_arg0 (c : Dev nD) : V m c main_arg0 = m ((c : Thread nD τ).loc main_arg0) := by kept_before
set_option maxHeartbeats 1000000 in
theorem V_main_arg1 (c : Dev nD) : V m c main_arg1 = m ((c : Thread nD τ).loc main_arg1) := by kept_before
set_option maxHeartbeats 1000000 in
theorem V_main_arg2 (c : Dev nD) : V m c main_arg2 = m ((c : Thread nD τ).loc main_arg2) := by kept_before
set_option maxHeartbeats 1000000 in
theorem V_main_arg3 (c : Dev nD) : V m c main_arg3 = m ((c : Thread nD τ).loc main_arg3) := by kept_before
set_option maxHeartbeats 1000000 in
theorem V_main_arg4 (c : Dev nD) : V m c main_arg4 = m ((c : Thread nD τ).loc main_arg4) := by kept_before
set_option maxHeartbeats 1000000 in
theorem V_main_arg5 (c : Dev nD) : V m c main_arg5 = m ((c : Thread nD τ).loc main_arg5) := by kept_before
set_option maxHeartbeats 1000000 in
theorem V_main_arg6 (c : Dev nD) : V m c main_arg6 = m ((c : Thread nD τ).loc main_arg6) := by kept_before
set_option maxHeartbeats 1000000 in
theorem V_main_arg7 (c : Dev nD) : V m c main_arg7 = m ((c : Thread nD τ).loc main_arg7) := by kept_before
set_option maxHeartbeats 1000000 in
theorem V_main_arg8 (c : Dev nD) : V m c main_arg8 = m ((c : Thread nD τ).loc main_arg8) := by kept_before
set_option maxHeartbeats 1000000 in
theorem V_main_arg9 (c : Dev nD) : V m c main_arg9 = m ((c : Thread nD τ).loc main_arg9) := by kept_before
set_option maxHeartbeats 1000000 in
theorem V_main_arg10 (c : Dev nD) : V m c main_arg10 = m ((c : Thread nD τ).loc main_arg10) := by kept_before

/-- A buffer that no host operation after the region writes and that is no window's array ends as the region found it. -/
local macro "kept_after" b:term : tactic => `(tactic| (
  unfold Pipeline.afterTail₀
  rw [StableHlo.after_of_forall_not_mem (b := Proc.devRef .tc $b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ _ (V0 _ _) _ $b (by exact (by decide : ∀ w, Pipeline.arrRef spec0 w ≠ $b))]))

section Tail
variable (dats : (p : Fin 1) → (c : Dev nD) → Dat τ (Elt F) Unit ℕ (UR sig nD τ) ℕ (cfgs p) c) (c : Dev nD)

theorem W_main_arg0 : Pipeline.afterTail₀ cfgs dats 0 (V0 m) [hostOps1] c main_arg0 = m ((c : Thread nD τ).loc main_arg0) := by
  kept_after main_arg0; exact V_main_arg0 m c
theorem W_main_arg1 : Pipeline.afterTail₀ cfgs dats 0 (V0 m) [hostOps1] c main_arg1 = m ((c : Thread nD τ).loc main_arg1) := by
  kept_after main_arg1; exact V_main_arg1 m c
theorem W_main_arg2 : Pipeline.afterTail₀ cfgs dats 0 (V0 m) [hostOps1] c main_arg2 = m ((c : Thread nD τ).loc main_arg2) := by
  kept_after main_arg2; exact V_main_arg2 m c

end Tail

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is the region-entry contents and whose body
    leaves the block in place. -/
local macro "input_block" w:term : tactic => `(tactic| (
  intro dat hA hafter t d
  exact (dat.before_in_eq_fetched $w rfl (fun _ => rfl) (fun _ _ _ => rfl) (fun t => by rw [hafter]; unfold Dat.blockOf iblk; rw [hA]; try rfl) t d).trans
    (by unfold Dat.fetched Dat.blockOf iblk; rw [hA]; try rfl)))

section Inputs
variable {c : Dev nD}

theorem before0_0_of : ∀ (dat : Dat τ (Elt F) Unit ℕ (UR sig nD τ) ℕ cfg0 c) (hA : dat.A 0 = V m c (Pipeline.arrRef spec0 0))
    (hafter : ∀ t, dat.after 0 t = iblk m c 0 t) (t : Fin cfg0.N) (d), dat.before 0 t d = iblk m c 0 t := by input_block 0
theorem before0_1_of : ∀ (dat : Dat τ (Elt F) Unit ℕ (UR sig nD τ) ℕ cfg0 c) (hA : dat.A 1 = V m c (Pipeline.arrRef spec0 1))
    (hafter : ∀ t, dat.after 1 t = iblk m c 1 t) (t : Fin cfg0.N) (d), dat.before 1 t d = iblk m c 1 t := by input_block 1
theorem before0_2_of : ∀ (dat : Dat τ (Elt F) Unit ℕ (UR sig nD τ) ℕ cfg0 c) (hA : dat.A 2 = V m c (Pipeline.arrRef spec0 2))
    (hafter : ∀ t, dat.after 2 t = iblk m c 2 t) (t : Fin cfg0.N) (d), dat.before 2 t d = iblk m c 2 t := by input_block 2
theorem before0_3_of : ∀ (dat : Dat τ (Elt F) Unit ℕ (UR sig nD τ) ℕ cfg0 c) (hA : dat.A 3 = V m c (Pipeline.arrRef spec0 3))
    (hafter : ∀ t, dat.after 3 t = iblk m c 3 t) (t : Fin cfg0.N) (d), dat.before 3 t d = iblk m c 3 t := by input_block 3
theorem before0_4_of : ∀ (dat : Dat τ (Elt F) Unit ℕ (UR sig nD τ) ℕ cfg0 c) (hA : dat.A 4 = V m c (Pipeline.arrRef spec0 4))
    (hafter : ∀ t, dat.after 4 t = iblk m c 4 t) (t : Fin cfg0.N) (d), dat.before 4 t d = iblk m c 4 t := by input_block 4
theorem before0_5_of : ∀ (dat : Dat τ (Elt F) Unit ℕ (UR sig nD τ) ℕ cfg0 c) (hA : dat.A 5 = V m c (Pipeline.arrRef spec0 5))
    (hafter : ∀ t, dat.after 5 t = iblk m c 5 t) (t : Fin cfg0.N) (d), dat.before 5 t d = iblk m c 5 t := by input_block 5
theorem before0_6_of : ∀ (dat : Dat τ (Elt F) Unit ℕ (UR sig nD τ) ℕ cfg0 c) (hA : dat.A 6 = V m c (Pipeline.arrRef spec0 6))
    (hafter : ∀ t, dat.after 6 t = iblk m c 6 t) (t : Fin cfg0.N) (d), dat.before 6 t d = iblk m c 6 t := by input_block 6
theorem before0_7_of : ∀ (dat : Dat τ (Elt F) Unit ℕ (UR sig nD τ) ℕ cfg0 c) (hA : dat.A 7 = V m c (Pipeline.arrRef spec0 7))
    (hafter : ∀ t, dat.after 7 t = iblk m c 7 t) (t : Fin cfg0.N) (d), dat.before 7 t d = iblk m c 7 t := by input_block 7
theorem before0_8_of : ∀ (dat : Dat τ (Elt F) Unit ℕ (UR sig nD τ) ℕ cfg0 c) (hA : dat.A 8 = V m c (Pipeline.arrRef spec0 8))
    (hafter : ∀ t, dat.after 8 t = iblk m c 8 t) (t : Fin cfg0.N) (d), dat.before 8 t d = iblk m c 8 t := by input_block 8
theorem before0_9_of : ∀ (dat : Dat τ (Elt F) Unit ℕ (UR sig nD τ) ℕ cfg0 c) (hA : dat.A 9 = V m c (Pipeline.arrRef spec0 9))
    (hafter : ∀ t, dat.after 9 t = iblk m c 9 t) (t : Fin cfg0.N) (d), dat.before 9 t d = iblk m c 9 t := by input_block 9

end Inputs

/-! ## The frame claim from the frame run -/

/-- A run to the frame post (every window's array at what the proof data computes, every other unscoped buffer as the
    operations after the region leave it) ends with every argument array as launched: none is an output window's
    array, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).1 4).trans (((dats 0 c).arrAt_in 4 rfl _).trans ((hA c 4).trans (V_main_arg5 m c))),
    ((h c).1 5).trans (((dats 0 c).arrAt_in 5 rfl _).trans ((hA c 5).trans (V_main_arg6 m c))),
    ((h c).1 6).trans (((dats 0 c).arrAt_in 6 rfl _).trans ((hA c 6).trans (V_main_arg7 m c))),
    ((h c).1 7).trans (((dats 0 c).arrAt_in 7 rfl _).trans ((hA c 7).trans (V_main_arg8 m c))),
    ((h c).1 8).trans (((dats 0 c).arrAt_in 8 rfl _).trans ((hA c 8).trans (V_main_arg9 m c))),
    ((h c).1 9).trans (((dats 0 c).arrAt_in 9 rfl _).trans ((hA c 9).trans (V_main_arg10 m c)))⟩) h

end Cert.KernelIdeal.Fr

end
-- ==== Proof.BodyKI.lean ====
import proofs.«146068_j82867099009204_1_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

/-! # One grid point of the edge kernel

At a grid point the kernel body reads a block of 4000 edges' combined features and relative positions and the two
small networks' weights, and stores two blocks: the 4000 edges' feature messages (`outX`) and position updates
(`outP`). Each store covers its whole buffer, so what a buffer holds afterwards is the stored value itself, a pure
function of the blocks read. This module states that function and the body's triple, at any float instance. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-buffer rectangles the body reads and writes -/

abbrev rC : Rect S4000x129 := Rect.unit (s := S4000x129) ![0, 0] S4000x129.size inb_S4000x129_S4000x129_0_0
abbrev rR : Rect S4000x3 := Rect.unit (s := S4000x3) ![0, 0] S4000x3.size inb_S4000x3_S4000x3_0_0
abbrev rW1 : Rect S129x128 := Rect.unit (s := S129x128) ![0, 0] S129x128.size inb_S129x128_S129x128_0_0
abbrev rB1 : Rect S128 := Rect.unit (s := S128) ![0] S128.size inb_S128_S128_0
abbrev rW2x : Rect S128x64 := Rect.unit (s := S128x64) ![0, 0] S128x64.size inb_S128x64_S128x64_0_0
abbrev rB2x : Rect S64 := Rect.unit (s := S64) ![0] S64.size inb_S64_S64_0
abbrev rW2p : Rect S128x1 := Rect.unit (s := S128x1) ![0, 0] S128x1.size inb_S128x1_S128x1_0_0
abbrev rB2p : Rect S1 := Rect.unit (s := S1) ![0] S1.size inb_S1_S1_0
abbrev rX : Rect S4000x64 := Rect.unit (s := S4000x64) ![0, 0] S4000x64.size inb_S4000x64_S4000x64_0_0

/-! ## What the body leaves in the two output buffers -/

/-- The message block: the feature network applied to the block of combined features. -/
def outX (x0 : Vec F S4000x129 .f32) (x2 : Vec F S129x128 .f32) (x3 : Vec F S128 .f32) (x4 : Vec F S128x64 .f32) (x5 : Vec F S64 .f32) :
    Vec F S4000x64 .f32 :=
  View.canon [⟨rX, k0_pay4 (View.ld x0 rC) (View.ld x2 rW1) (View.ld x3 rB1) (View.ld x4 rW2x) (View.ld x5 rB2x)⟩]

/-- The position-update block: the position network's scalar per edge times the edge's relative position. -/
def outP (x0 : Vec F S4000x129 .f32) (x1 : Vec F S4000x3 .f32) (x6 : Vec F S129x128 .f32) (x7 : Vec F S128 .f32) (x8 : Vec F S128x1 .f32) (x9 : Vec F S1 .f32) :
    Vec F S4000x3 .f32 :=
  View.canon [⟨rR, k0_pay1 (k0_pay2 (View.ld x1 rR)) (k0_pay5 (View.ld x0 rC) (View.ld x6 rW1) (View.ld x7 rB1) (View.ld x8 rW2p)) (View.ld x9 rB2p)⟩]

/-- One whole-buffer store covers the buffer. -/
theorem coverX (p0 : Vec F S4000x64 .f32) (y : S4000x64.Idx) :
    ∃ pc ∈ ([⟨rX, p0⟩] : List (View.Piece (Elt F) S4000x64 .f32)), y ∈ pc.1.set :=
  View.cover_of_tiled [⟨rX, p0⟩] S4000x64.size (by rfl) y
theorem coverP (p0 : Vec F S4000x3 .f32) (y : S4000x3.Idx) :
    ∃ pc ∈ ([⟨rR, p0⟩] : List (View.Piece (Elt F) S4000x3 .f32)), y ∈ pc.1.set :=
  View.cover_of_tiled [⟨rR, p0⟩] S4000x3.size (by rfl) y

/-! ## The body's triple -/

set_option maxHeartbeats 4000000 in
/-- The body on whole staging memrefs — the ten inputs' at contents `x0 … x9`, the two outputs' at anything — runs to a
    continuation that holds the inputs' as they were and the outputs' at `outX` and `outP` of the inputs'. -/
theorem sound_kernel (c : Dev nD) (E : Set ℕ) (i : grid0.Coords)
    (arg1 : Memref sig .tc .vmem S4000x129 .f32) (harg1 : arg1.IsWhole) (arg2 : Memref sig .tc .vmem S4000x3 .f32) (harg2 : arg2.IsWhole)
    (arg3 : Memref sig .tc .vmem S129x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S129x128 .f32) (harg7 : arg7.IsWhole) (arg8 : Memref sig .tc .vmem S128 .f32) (harg8 : arg8.IsWhole)
    (arg9 : Memref sig .tc .vmem S128x1 .f32) (harg9 : arg9.IsWhole) (arg10 : Memref sig .tc .vmem S1 .f32) (harg10 : arg10.IsWhole)
    (arg11 : Memref sig .tc .vmem S4000x64 .f32) (harg11 : arg11.IsWhole) (arg12 : Memref sig .tc .vmem S4000x3 .f32) (harg12 : arg12.IsWhole)
    (x0 : Vec F S4000x129 .f32) (x1 : Vec F S4000x3 .f32) (x2 : Vec F S129x128 .f32) (x3 : Vec F S128 .f32) (x4 : Vec F S128x64 .f32)
    (x5 : Vec F S64 .f32) (x6 : Vec F S129x128 .f32) (x7 : Vec F S128 .f32) (x8 : Vec F S128x1 .f32) (x9 : Vec F S1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (outX x0 x2 x3 x4 x5)
            ∗ owns (c : Thread nD τ) arg12 fullShare (outP x0 x1 x6 x7 x8 x9)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10 arg11 harg11 arg12 harg12) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%dX, %fX, -, HX⟩, ⟨%dP, %fP, -, HP⟩, Hk⟩
  subst hf0 hf1 hf2 hf3 hf4 hf5 hf6 hf7 hf8 hf9
  -- every load reads its whole buffer and leaves it as it was; each of the two stores overwrites its whole buffer
  sl_exec
  sl_step
  iapply Hk
  -- the ten inputs are returned unchanged
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  -- an output buffer, read back after a store that covers it, holds the canonical form of that store
  isplitl [HX]
  · iexists _; isplitr
    swap; · iexact HX
    ipureintro
    exact View.read_writes_eq_canon _ _ _ (coverX _)
  iexists _; isplitr
  swap; · iexact HP
  ipureintro
  -- the stored value names the part's two results; opened, they are the payloads over the blocks read
  sl_unfold_words
  exact View.read_writes_eq_canon _ _ _ (coverP _)

end Cert.KernelIdeal.Fr

end
-- ==== Proof.RunKI.lean ====
import proofs.«146068_j82867099009204_1_alg».proof.Proof.FrameKitKI
import proofs.«146068_j82867099009204_1_alg».proof.Proof.BodyKI

/-! # The run of the whole program

The proof data of the one pipeline: each array as the region finds it; after the body at a grid point each input
window's buffer still at its block and the two output windows' buffers at the message block and the position-update
block of that point's input blocks. With the body's triple at every point this gives the run of @main: it terminates
without a fault, each output array ends as the blocks written back, and every other buffer as the host operations
after the region leave it. The frame claim follows. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The message block of point `t`: the feature network on the point's block of combined features. -/
abbrev blockX (c : Dev nD) (t : Fin cfg0.N) : Vec F S4000x64 .f32 :=
  outX (iblk m c 0 t) (iblk m c 2 t) (iblk m c 3 t) (iblk m c 4 t) (iblk m c 5 t)
/-- The position-update block of point `t`. -/
abbrev blockP (c : Dev nD) (t : Fin cfg0.N) : Vec F S4000x3 .f32 :=
  outP (iblk m c 0 t) (iblk m c 1 t) (iblk m c 6 t) (iblk m c 7 t) (iblk m c 8 t) (iblk m c 9 t)

/-- The arrays as the region finds them; after the body at point `t` each input's buffer at its block and each
    output's at its block of the input blocks; nothing else kept between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => blockX m c t
    | ⟨11, _⟩ => blockP m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = blockX m c t := by dsimp only [dats]
theorem after0_11 (c : Dev nD) (t : Fin cfg0.N) : (dats m 0 c).after 11 t = blockP m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the pipeline holds what
    the proof data computes (an output array: the blocks written back) and every other unscoped buffer what the host
    operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.LibNary3.lean ====
import Idealize.ShloMosaic.Lib.StableHlo.Run

/-! # A host operation over a literal family of three references

A three-operand host operation (a concatenate of three pieces) reads each operand's contents at that operand's own
reference. The family of references is a literal `![a, b, c]`; stated with the contents listed one by one
(`Fin.cons`), the result can be rewritten further operand by operand. -/

namespace Idealize.ShloMosaic.StableHlo

open Idealize.ShloMosaic Idealize.SL.Sem

variable {τ : Topo} {sig : RefSig} {Val : EltTy → Type}
variable {a b c y : Ref sig .tc}

/-- The result of an operation over the three references `a, b, c`, at its own result buffer: its function applied
    to the three operands' contents, each read at its own reference. -/
theorem nary3_result
    (f : ((k : Fin 3) → ((![a, b, c] : Fin 3 → Ref sig .tc) k).ty.Contents Val) → y.ty.Contents Val) (hxs hy)
    (F : Valuation τ sig Val) :
    (nary (τ := τ) ![a, b, c] y f hxs hy).result F (Proc.devRef .tc y)
      = f (Fin.cons (F (Proc.devRef .tc a)) (Fin.cons (F (Proc.devRef .tc b)) (Fin.cons (F (Proc.devRef .tc c)) (fun i => i.elim0)))) := by
  rw [nary_result]; congr 1; funext k; fin_cases k <;> rfl

/-- The same with the result reference un-indexed, for use by `simp`. -/
theorem nary3_result'
    (f : ((k : Fin 3) → ((![a, b, c] : Fin 3 → Ref sig .tc) k).ty.Contents Val) → y.ty.Contents Val) (hxs hy)
    (F : Valuation τ sig Val) :
    (nary (τ := τ) ![a, b, c] y f hxs hy).result F (no_index (Proc.devRef .tc y))
      = f (Fin.cons (F (Proc.devRef .tc a)) (Fin.cons (F (Proc.devRef .tc b)) (Fin.cons (F (Proc.devRef .tc c)) (fun i => i.elim0)))) :=
  nary3_result f hxs hy F

/-- The results of a literal list of host operations by one `simp` pass, a three-operand operation read operand by
    operand (`nary3_result'`): every other operation as the library's own pass reads it. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostValKI.lean ====
import proofs.«146068_j82867099009204_1_alg».proof.Proof.RunKI
import proofs.«146068_j82867099009204_1_alg».proof.Proof.RefReadP
import proofs.«146068_j82867099009204_1_alg».proof.Proof.LibNary3

/-! # What the host operations around the region compute

Before the region the kernel's program gathers the node features and positions at the two ends of every edge, forms
the relative position and its squared length, and joins the three pieces into the combined edge features: the same
operations, on the same arguments, as the reference's (which runs them in another order). So the three arrays the
region and the later operations read — the combined features, the relative positions and the edges' target nodes — are
the reference's own stages of the launch contents. After the region each result is the scatter-addition, by target
node, of an output array of the region into zeros. Stated at any float instance. -/

set_option maxRecDepth 16384

noncomputable section

namespace Cert.KernelIdeal.Fr

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-! ## Before the region -/

set_option maxHeartbeats 4000000 in
/-- The edges' target nodes (the second row of the edge index). -/
theorem V_col (c : Dev nD) :
    V m c main_v3 = Cert.ReferenceIdeal.ReadP.val_main_v3 (F := F) (m ((c : Thread nD τ).loc main_arg2)) := by
  show StableHlo.after hostOps0 (fun b => m (c, b)) (Proc.devRef .tc main_v3) = _
  after_results_simp3
  rfl

set_option maxHeartbeats 4000000 in
/-- The relative positions: position at the source node minus position at the target node, edge by edge. -/
theorem V_relpos (c : Dev nD) :
    V m c main_v32 = Cert.ReferenceIdeal.ReadP.val_main_v18 (F := F) (m ((c : Thread nD τ).loc main_arg1)) (m ((c : Thread nD τ).loc main_arg2)) := by
  show StableHlo.after hostOps0 (fun b => m (c, b)) (Proc.devRef .tc main_v32) = _
  after_results_simp3
  rfl

set_option maxHeartbeats 4000000 in
/-- The combined edge features: source features, target features, squared distance. -/
theorem V_combined (c : Dev nD) :
    V m c main_v36 = Cert.ReferenceIdeal.ReadP.val_main_v36 (F := F) (m ((c : Thread nD τ).loc main_arg0)) (m ((c : Thread nD τ).loc main_arg1)) (m ((c : Thread nD τ).loc main_arg2)) := by
  show StableHlo.after hostOps0 (fun b => m (c, b)) (Proc.devRef .tc main_v36) = _
  after_results_simp3
  rfl

/-! ## After the region -/

/-- An array of per-edge feature rows scatter-added by target node into zeros (the reference's last stage for its
    first result, as a function of the edge index and the per-edge array). -/
def scatX (x2 : (⟨Cert.ReferenceIdeal.S2x800000, .i32⟩ : BufTy).Contents (Elt F)) (A : (⟨Cert.ReferenceIdeal.S800000x64, .f32⟩ : BufTy).Contents (Elt F)) :
    (⟨Cert.ReferenceIdeal.S50000x64, .f32⟩ : BufTy).Contents (Elt F) :=
  Host.scatterAdd Cert.ReferenceIdeal.scatter_S50000x64_S800000x1_S800000x64_1_0_0_1 (Cert.ReferenceIdeal.ReadP.val_main_v46 (F := F))
    (Cert.ReferenceIdeal.ReadP.val_main_v47 (F := F) x2) A
/-- The same for the per-edge position rows (the reference's last stage for its second result). -/
def scatP (x2 : (⟨Cert.ReferenceIdeal.S2x800000, .i32⟩ : BufTy).Contents (Elt F)) (A : (⟨Cert.ReferenceIdeal.S800000x3, .f32⟩ : BufTy).Contents (Elt F)) :
    (⟨Cert.ReferenceIdeal.S50000x3, .f32⟩ : BufTy).Contents (Elt F) :=
  Host.scatterAdd Cert.ReferenceIdeal.scatter_S50000x3_S800000x1_S800000x3_1_0_0_1 (Cert.ReferenceIdeal.ReadP.val_main_v60 (F := F))
    (Cert.ReferenceIdeal.ReadP.val_main_v61 (F := F) x2) A

/-- The reference's two results are these scatter-additions of its per-edge message and position-update arrays. -/
theorem ref_x (x0 x1 x2 x3 x4 x5 x6) :
    Cert.ReferenceIdeal.ReadP.val_main_v48 (F := F) x0 x1 x2 x3 x4 x5 x6 = scatX x2 (Cert.ReferenceIdeal.ReadP.val_main_v45 (F := F) x0 x1 x2 x3 x4 x5 x6) := rfl
theorem ref_p (x0 x1 x2 x7 x8 x9 x10) :
    Cert.ReferenceIdeal.ReadP.val_main_v62 (F := F) x0 x1 x2 x7 x8 x9 x10 = scatP x2 (Cert.ReferenceIdeal.ReadP.val_main_v59 (F := F) x0 x1 x2 x7 x8 x9 x10) := rfl

set_option maxHeartbeats 4000000 in
/-- The kernel program's first result: the region's message array scatter-added by target node into zeros. -/
theorem tail_x (c : Dev nD) :
    Pipeline.afterTail₀ cfgs (dats m) 0 (V0 m) [hostOps1] c main_v40
      = scatX (m ((c : Thread nD τ).loc main_arg2)) ((dats m 0 c).arrAt 10 cfg0.N) := by
  unfold Pipeline.afterTail₀
  show StableHlo.after hostOps1 _ (Proc.devRef .tc main_v40) = _
  after_results
  rw [Pipeline.withArrays_of_ne spec0 c (V0 m c) _ main_v3 (by decide)]
  have hw := Pipeline.withArrays_arr spec0 launch0.win.arr_inj c (V0 m c) (fun w => (dats m 0 c).arrAt w (cfgs 0).N) 10
  refine (congr (congrArg (Host.scatterAdd _ _) (congrArg (broadcastInDim _ _ _) (V_col m c))) hw).trans ?_
  rfl

set_option maxHeartbeats 4000000 in
/-- Its second result: the region's position-update array scatter-added by target node into zeros. -/
theorem tail_p (c : Dev nD) :
    Pipeline.afterTail₀ cfgs (dats m) 0 (V0 m) [hostOps1] c main_v43
      = scatP (m ((c : Thread nD τ).loc main_arg2)) ((dats m 0 c).arrAt 11 cfg0.N) := by
  unfold Pipeline.afterTail₀
  show StableHlo.after hostOps1 _ (Proc.devRef .tc main_v43) = _
  after_results
  rw [Pipeline.withArrays_of_ne spec0 c (V0 m c) _ main_v3 (by decide)]
  have hw := Pipeline.withArrays_arr spec0 launch0.win.arr_inj c (V0 m c) (fun w => (dats m 0 c).arrAt w (cfgs 0).N) 11
  refine (congr (congrArg (Host.scatterAdd _ _) (congrArg (broadcastInDim _ _ _) (V_col m c))) hw).trans ?_
  rfl

end Cert.KernelIdeal.Fr

end
-- ==== Proof.EdgeMath.lean ====
import proofs.«146068_j82867099009204_1_alg».proof.Proof.RefReadP
import proofs.«146068_j82867099009204_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! # One edge's row of the two small networks, in the kernel's block and in the reference's array

Over the extended reals the kernel's block computation and the reference's whole-array computation are the same
function of one edge's row of combined features: the feature message of edge `e` at output column `j` is
`∑ h, silu (∑ k, C e k · W1 k h + b1 h) · W2 h j + b2 j` with `silu u = u · 1 / (1 + exp (−u))`, and the position
update is the position network's scalar `∑ h, silu (…) · w2 h + b2` times the edge's relative position. A change of
float format is the identity, a matrix product into a zero accumulator is the plain sum, and the logistic function is
`1 / (1 + exp (−u))` on both sides; no law beyond reading each operation at an index is used. -/

noncomputable section

open scoped BigOperators

namespace Cert.EdgeMath

open Idealize.ShloMosaic Idealize.ShloMosaic.ValueIdx
open Cert.ReferenceIdeal.ReadP

/-! ## Words and layouts read at an index -/

/-- The f32 word `0x3F800000` is the number one. -/
theorem ofBits_one_f32 : Ideal.ofBits .f32 0x3F800000#32 = 1 := by
  simp [Ideal.ofBits, Ideal.ieee, -EReal.coe_mul]; norm_num

/-- A bias vector laid along every row: a `[b]` vector viewed as one row `[1, b]` and repeated over `a` rows reads, at
    `(p, c)`, the vector at `c`. -/
theorem bias_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply (shapeCast ⟨2, ![1, b]⟩ v h1) h2 p c).trans (shapeCast_a_1a_apply v h1 (0 : Fin 1) c)

/-- One column repeated over `b` columns: an `[a, 1]` array broadcast to `[a, b]` reads, at `(p, c)`, the column's entry in
    row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's side: one block of 4000 edges -/

section KernelSide

open Cert.KernelIdeal Cert.KernelIdeal.Gen

/-! ### The three matrix products, each into a zero accumulator, at an output index

Each product contracts the left operand's second axis with the right operand's first. The four axis equations say
which coordinate of the output index or of the contraction index each operand index carries. -/

/-- First product, left operand, row axis: the output row. -/
theorem lhs_mm1_0 (i : S4000x128.Idx) (q : dot_S4000x129_S129x128_S4000x128_1_0_0_1_n_n.contr.Idx) :
    (dot_S4000x129_S129x128_S4000x128_1_0_0_1_n_n.lhsIdx i q 0).val = (i 0).val := by
  unfold DotDims.lhsIdx
  rw [dif_neg (show ¬(0 : Fin S4000x129.rank) ∈ dot_S4000x129_S129x128_S4000x128_1_0_0_1_n_n.lhsBatch by decide), dif_pos (show (0 : Fin S4000x129.rank) ∈ dot_S4000x129_S129x128_S4000x128_1_0_0_1_n_n.lhsNonContracting by decide)]
  rfl
/-- First product, left operand, column axis: the contracted coordinate. -/
theorem lhs_mm1_1 (i : S4000x128.Idx) (q : dot_S4000x129_S129x128_S4000x128_1_0_0_1_n_n.contr.Idx) :
    (dot_S4000x129_S129x128_S4000x128_1_0_0_1_n_n.lhsIdx i q 1).val = (q ⟨0, by decide⟩).val :=
  dot_S4000x129_S129x128_S4000x128_1_0_0_1_n_n.lhsIdx_val_of_single rfl i q
/-- First product, right operand, row axis: the contracted coordinate. -/
theorem rhs_mm1_0 (i : S4000x128.Idx) (q : dot_S4000x129_S129x128_S4000x128_1_0_0_1_n_n.contr.Idx) :
    (dot_S4000x129_S129x128_S4000x128_1_0_0_1_n_n.rhsIdx i q 0).val = (q ⟨0, by decide⟩).val :=
  dot_S4000x129_S129x128_S4000x128_1_0_0_1_n_n.rhsIdx_val_of_single rfl i q
/-- First product, right operand, column axis: the output column. -/
theorem rhs_mm1_1 (i : S4000x128.Idx) (q : dot_S4000x129_S129x128_S4000x128_1_0_0_1_n_n.contr.Idx) :
    (dot_S4000x129_S129x128_S4000x128_1_0_0_1_n_n.rhsIdx i q 1).val = (i 1).val := by
  unfold DotDims.rhsIdx
  rw [dif_neg (show ¬(1 : Fin S129x128.rank) ∈ dot_S4000x129_S129x128_S4000x128_1_0_0_1_n_n.rhsBatch by decide), dif_pos (show (1 : Fin S129x128.rank) ∈ dot_S4000x129_S129x128_S4000x128_1_0_0_1_n_n.rhsNonContracting by decide)]
  rfl

/-- The block's format-changed copy of the combined features is the block itself: a shape cast to the same shape and a
    change of float format are both the identity. -/
theorem pay3_apply (Cb : Vec Ideal S4000x129 .f32) (i : S4000x129.Idx) : k0_pay3 (F := Ideal) Cb i = Cb i := by
  show shapeCast S4000x129 Cb shapeCasts_S4000x129_S4000x129 i = Cb i
  rw [shapeCast_self]

/-- The block's relative positions pass through a shape cast to the same shape unchanged. -/
theorem pay2_apply (Rb : Vec Ideal S4000x3 .f32) (i : S4000x3.Idx) : k0_pay2 (F := Ideal) Rb i = Rb i := by
  show shapeCast S4000x3 Rb shapeCasts_S4000x3_S4000x3 i = Rb i
  rw [shapeCast_self]

/-- First product: row `r` of the block's combined features against column `h` of a first-layer weight matrix,
    `∑ k, Cb (r, k) · W (k, h)` (both operands' change of format the identity). -/
theorem mm1_apply (Cb : Vec Ideal S4000x129 .f32) (W : FVec Ideal S129x128 .f32) (r : Fin 4000) (h : Fin 128) :
    matmul (F := Ideal) dot_S4000x129_S129x128_S4000x128_1_0_0_1_n_n none (k0_pay3 (F := Ideal) Cb)
        (truncf (F := Ideal) .bf16 W bitsLt_bf16_f32) (constant S4000x128 .f32 0x00000000#32) (ix2 r h)
      = ∑ k : Fin 129, Cb (ix2 r k) * W (ix2 k h) := by
  refine (Ideal.matmul_constant_zero_apply dot_S4000x129_S129x128_S4000x128_1_0_0_1_n_n none _ _ (ix2 r h)).trans ?_
  rw [← Equiv.sum_comp (contrEquiv1 dot_S4000x129_S129x128_S4000x128_1_0_0_1_n_n 129 rfl rfl).symm]
  refine Finset.sum_congr rfl fun k _ => ?_
  have hk := contrEquiv1_symm_val dot_S4000x129_S129x128_S4000x128_1_0_0_1_n_n 129 rfl rfl k
  have el : dot_S4000x129_S129x128_S4000x128_1_0_0_1_n_n.lhsIdx (ix2 r h) ((contrEquiv1 dot_S4000x129_S129x128_S4000x128_1_0_0_1_n_n 129 rfl rfl).symm k) = ix2 r k := funext fun a => Fin.ext (by
    match a with
    | ⟨0, _⟩ => exact lhs_mm1_0 _ _
    | ⟨1, _⟩ => exact (lhs_mm1_1 _ _).trans hk)
  have er : dot_S4000x129_S129x128_S4000x128_1_0_0_1_n_n.rhsIdx (ix2 r h) ((contrEquiv1 dot_S4000x129_S129x128_S4000x128_1_0_0_1_n_n 129 rfl rfl).symm k) = ix2 k h := funext fun a => Fin.ext (by
    match a with
    | ⟨0, _⟩ => exact (rhs_mm1_0 _ _).trans hk
    | ⟨1, _⟩ => exact rhs_mm1_1 _ _)
  rw [el, er, pay3_apply, truncf_apply]

/-- Second product (feature network), left operand, row axis: the output row. -/
theorem lhs_mm2_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- Second product (feature network), left operand, column axis: the contracted coordinate. -/
theorem lhs_mm2_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- Second product (feature network), right operand, row axis: the contracted coordinate. -/
theorem rhs_mm2_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- Second product (feature network), right operand, column axis: the output column. -/
theorem rhs_mm2_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Second product of the feature network: row `r` of a hidden block against column `j` of the second-layer weights,
    `∑ h, A (r, h) · W (h, j)`. -/
theorem mm2_apply (A : FVec Ideal S4000x128 .bf16) (W : FVec Ideal S128x64 .f32) (r : Fin 4000) (j : Fin 64) :
    matmul (F := Ideal) dot_S4000x128_S128x64_S4000x64_1_0_0_1_n_n none A
        (truncf (F := Ideal) .bf16 W bitsLt_bf16_f32) (constant S4000x64 .f32 0x00000000#32) (ix2 r j)
      = ∑ h : Fin 128, A (ix2 r h) * W (ix2 h j) := by
  refine (Ideal.matmul_constant_zero_apply dot_S4000x128_S128x64_S4000x64_1_0_0_1_n_n none _ _ (ix2 r j)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r j) ((contrEquiv1 dot_S4000x128_S128x64_S4000x64_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S4000x128_S128x64_S4000x64_1_0_0_1_n_n.rhsIdx (ix2 r j) ((contrEquiv1 dot_S4000x128_S128x64_S4000x64_1_0_0_1_n_n 128 rfl rfl).symm k) = ix2 k j := funext fun a => Fin.ext (by
    match a with
    | ⟨0, _⟩ => exact (rhs_mm2_0 _ _).trans hk
    | ⟨1, _⟩ => exact rhs_mm2_1 _ _)
  rw [el, er, truncf_apply]

/-- Second product (position network), left operand, row axis: the output row. -/
theorem lhs_mm3_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
/-- Second product (position network), left operand, column axis: the contracted coordinate. -/
theorem lhs_mm3_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
/-- Second product (position network), right operand, row axis: the contracted coordinate. -/
theorem rhs_mm3_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
/-- Second product (position network), right operand, column axis: the output column. -/
theorem rhs_mm3_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- Second product of the position network: row `r` of a hidden block against the one column of the second-layer
    weights, `∑ h, A (r, h) · W (h, c)`. -/
theorem mm3_apply (A : FVec Ideal S4000x128 .bf16) (W : FVec Ideal S128x1 .f32) (r : Fin 4000) (c : Fin 1) :
    matmul (F := Ideal) dot_S4000x128_S128x1_S4000x1_1_0_0_1_n_n none A
        (truncf (F := Ideal) .bf16 W bitsLt_bf16_f32) (constant S4000x1 .f32 0x00000000#32) (ix2 r c)
      = ∑ h : Fin 128, A (ix2 r h) * W (ix2 h c) := by
  refine (Ideal.matmul_constant_zero_apply dot_S4000x128_S128x1_S4000x1_1_0_0_1_n_n none _ _ (ix2 r c)).trans ?_
  rw [← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 r c) ((contrEquiv1 dot_S4000x128_S128x1_S4000x1_1_0_0_1_n_n 128 rfl rfl).symm k) = ix2 r k := funext fun a => Fin.ext (by
    match a with
    | ⟨0, _⟩ => exact lhs_mm3_0 _ _
    | ⟨1, _⟩ => exact (lhs_mm3_1 _ _).trans hk)
  have er : dot_S4000x128_S128x1_S4000x1_1_0_0_1_n_n.rhsIdx (ix2 r c) ((contrEquiv1 dot_S4000x128_S128x1_S4000x1_1_0_0_1_n_n 128 rfl rfl).symm k) = ix2 k c := funext fun a => Fin.ext (by
    match a with
    | ⟨0, _⟩ => exact (rhs_mm3_0 _ _).trans hk
    | ⟨1, _⟩ => exact rhs_mm3_1 _ _)
  rw [el, er, truncf_apply]

/-! ### A network's hidden layer on the block -/

/-- The block's pre-activations for first-layer weights `W1` and bias `b1`: the first product plus the bias laid along
    every row. -/
def kpre (Cb : Vec Ideal S4000x129 .f32) (W1 : FVec Ideal S129x128 .f32) (b1 : FVec Ideal S128 .f32) :
    FVec Ideal S4000x128 .f32 :=
  addf (matmul (F := Ideal) dot_S4000x129_S129x128_S4000x128_1_0_0_1_n_n none (k0_pay3 (F := Ideal) Cb)
      (truncf (F := Ideal) .bf16 W1 bitsLt_bf16_f32) (constant S4000x128 .f32 0x00000000#32))
    (broadcastTo S4000x128 (shapeCast S1x128 b1 shapeCasts_S128_S1x128) broadcasts_S1x128_S4000x128)

/-- The block's hidden activations: `u · logistic u` of the pre-activations, in the narrower format. -/
def khid (Cb : Vec Ideal S4000x129 .f32) (W1 : FVec Ideal S129x128 .f32) (b1 : FVec Ideal S128 .f32) :
    FVec Ideal S4000x128 .bf16 :=
  truncf (F := Ideal) .bf16 (mulf (kpre Cb W1 b1) (logistic (kpre Cb W1 b1))) bitsLt_bf16_f32

/-- The pre-activation at row `r`, hidden unit `h`: `∑ k, Cb (r, k) · W1 (k, h) + b1 h`. -/
theorem kpre_apply (Cb : Vec Ideal S4000x129 .f32) (W1 : FVec Ideal S129x128 .f32) (b1 : FVec Ideal S128 .f32)
    (r : Fin 4000) (h : Fin 128) :
    kpre Cb W1 b1 (ix2 r h) = ∑ k : Fin 129, Cb (ix2 r k) * W1 (ix2 k h) + b1 (ix1 h) := by
  unfold kpre
  refine (addf_apply _ _ _).trans ?_
  exact congrArg₂ (· + ·) (mm1_apply Cb W1 r h) (bias_row_apply b1 _ _ r h)

/-- The hidden activation at an index is `u · logistic u` of the pre-activation there: the change of format is the
    identity and the product and the logistic function act entry by entry. -/
theorem khid_apply (Cb : Vec Ideal S4000x129 .f32) (W1 : FVec Ideal S129x128 .f32) (b1 : FVec Ideal S128 .f32)
    (i : S4000x128.Idx) :
    khid Cb W1 b1 i = kpre Cb W1 b1 i * Ideal.logistic (kpre Cb W1 b1 i) := rfl

/-- The feature network's stored block is its second product over the hidden activations plus its second bias laid
    along every row. -/
theorem pay4_eq (Cb : Vec Ideal S4000x129 .f32) (W1 : FVec Ideal S129x128 .f32) (b1 : FVec Ideal S128 .f32)
    (W2 : FVec Ideal S128x64 .f32) (b2 : FVec Ideal S64 .f32) :
    k0_pay4 (F := Ideal) Cb W1 b1 W2 b2
      = addf (matmul (F := Ideal) dot_S4000x128_S128x64_S4000x64_1_0_0_1_n_n none (khid Cb W1 b1)
            (truncf (F := Ideal) .bf16 W2 bitsLt_bf16_f32) (constant S4000x64 .f32 0x00000000#32))
          (broadcastTo S4000x64 (shapeCast S1x64 b2 shapeCasts_S64_S1x64) broadcasts_S1x64_S4000x64) := rfl

/-- The position network's product block is its second product over the hidden activations. -/
theorem pay5_eq (Cb : Vec Ideal S4000x129 .f32) (W1 : FVec Ideal S129x128 .f32) (b1 : FVec Ideal S128 .f32)
    (w2 : FVec Ideal S128x1 .f32) :
    k0_pay5 (F := Ideal) Cb W1 b1 w2
      = matmul (F := Ideal) dot_S4000x128_S128x1_S4000x1_1_0_0_1_n_n none (khid Cb W1 b1)
          (truncf (F := Ideal) .bf16 w2 bitsLt_bf16_f32) (constant S4000x1 .f32 0x00000000#32) := rfl

/-- The position update's stored block: the scalar column plus its bias, repeated over the three coordinates, times
    the relative positions. -/
theorem pay1_eq (v3 : FVec Ideal S4000x3 .f32) (v35 : FVec Ideal S4000x1 .f32) (b2 : FVec Ideal S1 .f32) :
    k0_pay1 (F := Ideal) v3 v35 b2
      = mulf (broadcastTo S4000x3 (addf v35 (broadcastTo S4000x1 (shapeCast S1x1 b2 shapeCasts_S1_S1x1) broadcasts_S1x1_S4000x1))
          broadcasts_S4000x1_S4000x3) v3 := rfl

/-- The feature network's stored value at `(r, j)`: `∑ h, hidden (r, h) · W2 (h, j) + b2 j`. -/
theorem pay4_apply (Cb : Vec Ideal S4000x129 .f32) (W1 : FVec Ideal S129x128 .f32) (b1 : FVec Ideal S128 .f32)
    (W2 : FVec Ideal S128x64 .f32) (b2 : FVec Ideal S64 .f32) (r : Fin 4000) (j : Fin 64) :
    k0_pay4 (F := Ideal) Cb W1 b1 W2 b2 (ix2 r j)
      = ∑ h : Fin 128, khid Cb W1 b1 (ix2 r h) * W2 (ix2 h j) + b2 (ix1 j) := by
  rw [pay4_eq]
  refine (addf_apply _ _ _).trans ?_
  exact congrArg₂ (· + ·) (mm2_apply (khid Cb W1 b1) W2 r j) (bias_row_apply b2 _ _ r j)

/-- The position update's stored value at `(r, j)`: the scalar `∑ h, hidden (r, h) · w2 (h, 0) + b2 0` times the relative
    position's coordinate `j`. -/
theorem pay1_apply (Cb : Vec Ideal S4000x129 .f32) (Rb : Vec Ideal S4000x3 .f32) (W1 : FVec Ideal S129x128 .f32)
    (b1 : FVec Ideal S128 .f32) (w2 : FVec Ideal S128x1 .f32) (b2 : FVec Ideal S1 .f32) (r : Fin 4000) (j : Fin 3) :
    k0_pay1 (F := Ideal) (k0_pay2 (F := Ideal) Rb) (k0_pay5 (F := Ideal) Cb W1 b1 w2) b2 (ix2 r j)
      = (∑ h : Fin 128, khid Cb W1 b1 (ix2 r h) * w2 (ix2 h (0 : Fin 1)) + b2 (ix1 (0 : Fin 1))) * Rb (ix2 r j) := by
  rw [pay1_eq]
  refine (mulf_apply _ _ _).trans ?_
  refine congrArg₂ (· * ·) ?_ (pay2_apply Rb (ix2 r j))
  refine (broadcastTo_a1_ab_apply _ _ r j).trans ?_
  refine (addf_apply _ _ _).trans ?_
  refine congrArg₂ (· + ·) ?_ (bias_row_apply b2 _ _ r (0 : Fin 1))
  rw [pay5_eq]
  exact mm3_apply (khid Cb W1 b1) w2 r (0 : Fin 1)

end KernelSide

/-! ## The reference's side: edge `e` of the whole arrays -/

section ReferenceSide

open Cert.ReferenceIdeal (S50000x64 S50000x3 S2x800000 S129x128 S128 S128x64 S64 S128x1 S1 S800000x128 S800000x64 S800000x1 S800000x3)

variable (x0 : FVec Ideal S50000x64 .f32) (x1 : FVec Ideal S50000x3 .f32)
  (x2 : (⟨S2x800000, .i32⟩ : BufTy).Contents (Elt Ideal))

/-- The reference's first product at edge `e`, hidden unit `h`: the edge's row of combined features against column
    `h` of the first-layer weights. -/
theorem ref_mm1_apply (W1 : FVec Ideal S129x128 .f32) (e : Fin 800000) (h : Fin 128) :
    val_main_v37 (F := Ideal) x0 x1 x2 W1 (ix2 e h)
      = ∑ k : Fin 129, val_main_v36 (F := Ideal) x0 x1 x2 (ix2 e k) * W1 (ix2 k h) := by
  rw [val_main_v37_apply]
  refine Finset.sum_congr rfl fun k _ => ?_
  have el : lidx_main_v37 (ix2 e h) k = ix2 e k :=
    funext fun a => Fin.ext (by match a with | ⟨0, _⟩ => rfl | ⟨1, _⟩ => rfl)
  have er : ridx_main_v37 (ix2 e h) k = ix2 k h :=
    funext fun a => Fin.ext (by match a with | ⟨0, _⟩ => rfl | ⟨1, _⟩ => rfl)
  rw [el, er]

/-- The reference's first bias laid along the edges reads, at `(e, h)`, the bias at `h`. -/
theorem ref_b1_apply (b1 : FVec Ideal S128 .f32) (e : Fin 800000) (h : Fin 128) :
    val_main_v39 (F := Ideal) b1 (ix2 e h) = b1 (ix1 h) := by
  rw [val_main_v39_apply, val_main_v38_apply]
  exact congrArg b1 (funext fun a => Fin.ext (by match a with | ⟨0, _⟩ => rfl))

/-- The reference's pre-activation at edge `e`, hidden unit `h`: `∑ k, C (e, k) · W1 (k, h) + b1 h`. -/
theorem ref_pre_apply (W1 : FVec Ideal S129x128 .f32) (b1 : FVec Ideal S128 .f32) (e : Fin 800000) (h : Fin 128) :
    val_main_v40 (F := Ideal) x0 x1 x2 W1 b1 (ix2 e h)
      = ∑ k : Fin 129, val_main_v36 (F := Ideal) x0 x1 x2 (ix2 e k) * W1 (ix2 k h) + b1 (ix1 h) := by
  refine (val_main_v40_apply (F := Ideal) x0 x1 x2 W1 b1 (ix2 e h)).trans ?_
  exact congrArg₂ (· + ·) (ref_mm1_apply x0 x1 x2 W1 e h) (ref_b1_apply b1 e h)

/-- The reference's hidden activation is `u · logistic u` of its pre-activation `u`: it spells the logistic function
    `1 / (1 + exp (−u))` with the constant one written as an f32 word. -/
theorem ref_hid_apply (W1 : FVec Ideal S129x128 .f32) (b1 : FVec Ideal S128 .f32) (i : S800000x128.Idx) :
    val_main_v41 (F := Ideal) x0 x1 x2 W1 b1 i
      = val_main_v40 (F := Ideal) x0 x1 x2 W1 b1 i * Ideal.logistic (val_main_v40 (F := Ideal) x0 x1 x2 W1 b1 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, Ideal.ofBits_def, ofBits_one_f32]
  rfl

/-- The position network's hidden layer is the feature network's, applied to its own first-layer weights and bias:
    the two are the same operations in the same order on the same array of combined features. -/
theorem ref_hid2_eq (W1 : FVec Ideal S129x128 .f32) (b1 : FVec Ideal S128 .f32) :
    val_main_v53 (F := Ideal) x0 x1 x2 W1 b1 = val_main_v41 (F := Ideal) x0 x1 x2 W1 b1 := rfl

/-- The feature network's second product at edge `e`, column `j`: `∑ h, hidden (e, h) · W2 (h, j)`. -/
theorem ref_mm2_apply (W1 : FVec Ideal S129x128 .f32) (b1 : FVec Ideal S128 .f32) (W2 : FVec Ideal S128x64 .f32)
    (e : Fin 800000) (j : Fin 64) :
    val_main_v42 (F := Ideal) x0 x1 x2 W1 b1 W2 (ix2 e j)
      = ∑ h : Fin 128, val_main_v41 (F := Ideal) x0 x1 x2 W1 b1 (ix2 e h) * W2 (ix2 h j) := by
  rw [val_main_v42_apply]
  refine Finset.sum_congr rfl fun h _ => ?_
  have el : lidx_main_v42 (ix2 e j) h = ix2 e h :=
    funext fun a => Fin.ext (by match a with | ⟨0, _⟩ => rfl | ⟨1, _⟩ => rfl)
  have er : ridx_main_v42 (ix2 e j) h = ix2 h j :=
    funext fun a => Fin.ext (by match a with | ⟨0, _⟩ => rfl | ⟨1, _⟩ => rfl)
  rw [el, er]

/-- The feature network's second bias laid along the edges reads, at `(e, j)`, the bias at `j`. -/
theorem ref_b2_apply (b2 : FVec Ideal S64 .f32) (e : Fin 800000) (j : Fin 64) :
    val_main_v44 (F := Ideal) b2 (ix2 e j) = b2 (ix1 j) := by
  rw [val_main_v44_apply, val_main_v43_apply]
  exact congrArg b2 (funext fun a => Fin.ext (by match a with | ⟨0, _⟩ => rfl))

/-- The reference's message at edge `e`, column `j`: `∑ h, hidden (e, h) · W2 (h, j) + b2 j`. -/
theorem ref_msg_apply (W1 : FVec Ideal S129x128 .f32) (b1 : FVec Ideal S128 .f32) (W2 : FVec Ideal S128x64 .f32)
    (b2 : FVec Ideal S64 .f32) (e : Fin 800000) (j : Fin 64) :
    val_main_v45 (F := Ideal) x0 x1 x2 W1 b1 W2 b2 (ix2 e j)
      = ∑ h : Fin 128, val_main_v41 (F := Ideal) x0 x1 x2 W1 b1 (ix2 e h) * W2 (ix2 h j) + b2 (ix1 j) := by
  refine (val_main_v45_apply (F := Ideal) x0 x1 x2 W1 b1 W2 b2 (ix2 e j)).trans ?_
  exact congrArg₂ (· + ·) (ref_mm2_apply x0 x1 x2 W1 b1 W2 e j) (ref_b2_apply b2 e j)

/-- The position network's second product at edge `e`: `∑ h, hidden (e, h) · w2 (h, c)`, its hidden layer read as the
    feature network's on its own weights. -/
theorem ref_mm3_apply (W1 : FVec Ideal S129x128 .f32) (b1 : FVec Ideal S128 .f32) (w2 : FVec Ideal S128x1 .f32)
    (e : Fin 800000) (c : Fin 1) :
    val_main_v54 (F := Ideal) x0 x1 x2 W1 b1 w2 (ix2 e c)
      = ∑ h : Fin 128, val_main_v41 (F := Ideal) x0 x1 x2 W1 b1 (ix2 e h) * w2 (ix2 h c) := by
  rw [val_main_v54_apply]
  refine Finset.sum_congr rfl fun h _ => ?_
  have el : lidx_main_v54 (ix2 e c) h = ix2 e h :=
    funext fun a => Fin.ext (by match a with | ⟨0, _⟩ => rfl | ⟨1, _⟩ => rfl)
  have er : ridx_main_v54 (ix2 e c) h = ix2 h c :=
    funext fun a => Fin.ext (by match a with | ⟨0, _⟩ => rfl | ⟨1, _⟩ => rfl)
  rw [el, er, ref_hid2_eq]

/-- The position network's one-entry bias laid along the edges reads that entry everywhere. -/
theorem ref_b3_apply (b2 : FVec Ideal S1 .f32) (e : Fin 800000) (c : Fin 1) :
    val_main_v56 (F := Ideal) b2 (ix2 e c) = b2 (ix1 (0 : Fin 1)) := by
  rw [val_main_v56_apply, val_main_v55_apply]
  exact congrArg b2 (funext fun a => Fin.ext (by match a with | ⟨0, _⟩ => rfl))

/-- The position network's scalar of edge `e`, repeated over the three coordinates:
    `∑ h, hidden (e, h) · w2 (h, 0) + b2 0` at every `(e, j)`. -/
theorem ref_scale_apply (W1 : FVec Ideal S129x128 .f32) (b1 : FVec Ideal S128 .f32) (w2 : FVec Ideal S128x1 .f32)
    (b2 : FVec Ideal S1 .f32) (e : Fin 800000) (j : Fin 3) :
    val_main_v58 (F := Ideal) x0 x1 x2 W1 b1 w2 b2 (ix2 e j)
      = ∑ h : Fin 128, val_main_v41 (F := Ideal) x0 x1 x2 W1 b1 (ix2 e h) * w2 (ix2 h (0 : Fin 1)) + b2 (ix1 (0 : Fin 1)) := by
  have e58 : idx_main_v58 (ix2 e j) = ix2 e (0 : Fin 1) :=
    funext fun a => Fin.ext (by match a with | ⟨0, _⟩ => rfl | ⟨1, _⟩ => rfl)
  rw [val_main_v58_apply, e58]
  refine (val_main_v57_apply (F := Ideal) x0 x1 x2 W1 b1 w2 b2 (ix2 e (0 : Fin 1))).trans ?_
  exact congrArg₂ (· + ·) (ref_mm3_apply x0 x1 x2 W1 b1 w2 e 0) (ref_b3_apply b2 e 0)

/-- The reference's position update at edge `e`, coordinate `j`: the edge's scalar times its relative position. -/
theorem ref_upd_apply (W1 : FVec Ideal S129x128 .f32) (b1 : FVec Ideal S128 .f32) (w2 : FVec Ideal S128x1 .f32)
    (b2 : FVec Ideal S1 .f32) (e : Fin 800000) (j : Fin 3) :
    val_main_v59 (F := Ideal) x0 x1 x2 W1 b1 w2 b2 (ix2 e j)
      = (∑ h : Fin 128, val_main_v41 (F := Ideal) x0 x1 x2 W1 b1 (ix2 e h) * w2 (ix2 h (0 : Fin 1)) + b2 (ix1 (0 : Fin 1)))
          * val_main_v18 (F := Ideal) x1 x2 (ix2 e j) := by
  refine (val_main_v59_apply (F := Ideal) x0 x1 x2 W1 b1 w2 b2 (ix2 e j)).trans ?_
  show val_main_v58 (F := Ideal) x0 x1 x2 W1 b1 w2 b2 (ix2 e j) * val_main_v18 (F := Ideal) x1 x2 (ix2 e j) = _
  rw [ref_scale_apply]

end ReferenceSide

/-! ## The two sides meet -/

/-- The hidden layer. Block row `r` holding edge `e`'s combined features, the kernel's hidden activation at `(r, h)` is
    the reference's at `(e, h)`, for either network's first-layer weights and bias: the same sum of the same products
    plus the same bias, through the same `u · logistic u`. -/
theorem hidden_eq
    (x0 : FVec Ideal Cert.ReferenceIdeal.S50000x64 .f32) (x1 : FVec Ideal Cert.ReferenceIdeal.S50000x3 .f32)
    (x2 : (⟨Cert.ReferenceIdeal.S2x800000, .i32⟩ : BufTy).Contents (Elt Ideal))
    (W1 : FVec Ideal Cert.ReferenceIdeal.S129x128 .f32) (b1 : FVec Ideal Cert.ReferenceIdeal.S128 .f32)
    (Cb : Vec Ideal Cert.KernelIdeal.S4000x129 .f32) (e : Fin 800000) (r : Fin 4000)
    (hrow : ∀ k : Fin 129, Cb (ix2 r k) = val_main_v36 (F := Ideal) x0 x1 x2 (ix2 e k)) (h : Fin 128) :
    khid Cb W1 b1 (ix2 r h) = val_main_v41 (F := Ideal) x0 x1 x2 W1 b1 (ix2 e h) := by
  have hp : kpre Cb W1 b1 (ix2 r h) = val_main_v40 (F := Ideal) x0 x1 x2 W1 b1 (ix2 e h) := by
    rw [kpre_apply, ref_pre_apply]
    exact congrArg (· + b1 (ix1 h)) (Finset.sum_congr rfl fun k _ => by rw [hrow k])
  rw [khid_apply, ref_hid_apply, hp]

/-- The feature message. In the kernel's block of 4000 edges, row `r` holding edge `e`'s combined features, the
    stored value at `(r, j)` is the reference's message array at `(e, j)`. -/
theorem blockX_apply
    (x0 : FVec Ideal Cert.ReferenceIdeal.S50000x64 .f32) (x1 : FVec Ideal Cert.ReferenceIdeal.S50000x3 .f32)
    (x2 : (⟨Cert.ReferenceIdeal.S2x800000, .i32⟩ : BufTy).Contents (Elt Ideal))
    (x3 : FVec Ideal Cert.ReferenceIdeal.S129x128 .f32) (x4 : FVec Ideal Cert.ReferenceIdeal.S128 .f32)
    (x5 : FVec Ideal Cert.ReferenceIdeal.S128x64 .f32) (x6 : FVec Ideal Cert.ReferenceIdeal.S64 .f32)
    (Cb : Vec Ideal Cert.KernelIdeal.S4000x129 .f32) (e : Fin 800000) (r : Fin 4000)
    (hrow : ∀ k : Fin 129, Cb (ix2 r k) = val_main_v36 (F := Ideal) x0 x1 x2 (ix2 e k)) (j : Fin 64) :
    Cert.KernelIdeal.Gen.k0_pay4 (F := Ideal) Cb x3 x4 x5 x6 (ix2 r j)
      = val_main_v45 (F := Ideal) x0 x1 x2 x3 x4 x5 x6 (ix2 e j) := by
  rw [pay4_apply, ref_msg_apply]
  exact congrArg (· + x6 (ix1 j)) (Finset.sum_congr rfl fun h _ => by rw [hidden_eq x0 x1 x2 x3 x4 Cb e r hrow h])

/-- The position update. Row `r` of the block holding edge `e`'s combined features and relative position, the stored
    value at `(r, j)` is the reference's position-update array at `(e, j)`. -/
theorem blockP_apply
    (x0 : FVec Ideal Cert.ReferenceIdeal.S50000x64 .f32) (x1 : FVec Ideal Cert.ReferenceIdeal.S50000x3 .f32)
    (x2 : (⟨Cert.ReferenceIdeal.S2x800000, .i32⟩ : BufTy).Contents (Elt Ideal))
    (x7 : FVec Ideal Cert.ReferenceIdeal.S129x128 .f32) (x8 : FVec Ideal Cert.ReferenceIdeal.S128 .f32)
    (x9 : FVec Ideal Cert.ReferenceIdeal.S128x1 .f32) (x10 : FVec Ideal Cert.ReferenceIdeal.S1 .f32)
    (Cb : Vec Ideal Cert.KernelIdeal.S4000x129 .f32) (Rb : Vec Ideal Cert.KernelIdeal.S4000x3 .f32) (e : Fin 800000) (r : Fin 4000)
    (hrowC : ∀ k : Fin 129, Cb (ix2 r k) = val_main_v36 (F := Ideal) x0 x1 x2 (ix2 e k))
    (hrowR : ∀ k : Fin 3, Rb (ix2 r k) = val_main_v18 (F := Ideal) x1 x2 (ix2 e k)) (j : Fin 3) :
    Cert.KernelIdeal.Gen.k0_pay1 (F := Ideal) (Cert.KernelIdeal.Gen.k0_pay2 Rb) (Cert.KernelIdeal.Gen.k0_pay5 Cb x7 x8 x9) x10 (ix2 r j)
      = val_main_v59 (F := Ideal) x0 x1 x2 x7 x8 x9 x10 (ix2 e j) := by
  rw [pay1_apply, ref_upd_apply, hrowR j]
  exact congrArg (fun s => (s + x10 (ix1 (0 : Fin 1))) * val_main_v18 (F := Ideal) x1 x2 (ix2 e j))
    (Finset.sum_congr rfl fun h _ => by rw [hidden_eq x0 x1 x2 x7 x8 Cb e r hrowC h])

end Cert.EdgeMath

end
-- ==== Proof.FinalKI.lean ====
import proofs.«146068_j82867099009204_1_alg».proof.Proof.HostValKI
import proofs.«146068_j82867099009204_1_alg».proof.Proof.EdgeMath

/-! # The region's two output arrays after the run

Grid point `t` writes back rows `4000·t … 4000·t + 3999` of each output array, and the 200 points' blocks tile the
800000 rows. Row `r` of the point's block of combined features (and of relative positions) is row `4000·t + r` of the
array, and the weights' windows are the whole weight arrays at every point; so by the row-wise identity between the
kernel's block computation and the reference's array computation, each output array ends as the reference's per-edge
array: the feature messages, and the position updates. Over the extended reals. -/

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The index maps over the grid -/

theorem hz2 : (![0, 0] : Fin 2 → Nat) = fun _ => 0 := funext fun a => by fin_cases a <;> rfl
theorem hz1 : (![0] : Fin 1 → Nat) = fun _ => 0 := funext fun a => by fin_cases a <;> rfl

/-- The windows of the combined features, the relative positions and the two outputs move down the rows with the
    grid point: at point `t` each is at row block `t`, column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The eight weight windows stay at block 0 on every axis at every point. -/
theorem idx_whole : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## The weight windows are the whole weight arrays -/

/-- The feature network's first-layer weights: block 0 of size the whole array is the array as launched. -/
theorem iblk2_eq (c : Dev nD) (t : Fin cfg0.N) :
    (iblk m c 2 t : Vec Ideal S129x128 .f32) = m ((c : Thread nD τ).loc main_arg3) := by
  obtain ⟨e0, e1, -, -, -, -, -, -, -, -, -, -⟩ := idx_whole t
  funext (y : S129x128.Idx)
  unfold iblk
  rw [View.read_apply]
  show V m c main_arg3 _ = m ((c : Thread nD τ).loc main_arg3) y
  rw [V_main_arg3]
  refine congrArg _ (funext fun a => Fin.ext ?_)
  match a with
  | ⟨0, _⟩ => show win0_2.index t (0 : Fin 2) * 129 + 1 * (y 0).val = (y 0).val; rw [e0]; omega
  | ⟨1, _⟩ => show win0_2.index t (1 : Fin 2) * 128 + 1 * (y 1).val = (y 1).val; rw [e1]; omega

/-- The feature network's first-layer bias. -/
theorem iblk3_eq (c : Dev nD) (t : Fin cfg0.N) :
    (iblk m c 3 t : Vec Ideal S128 .f32) = m ((c : Thread nD τ).loc main_arg4) := by
  obtain ⟨-, -, e0, -, -, -, -, -, -, -, -, -⟩ := idx_whole t
  funext (y : S128.Idx)
  unfold iblk
  rw [View.read_apply]
  show V m c main_arg4 _ = m ((c : Thread nD τ).loc main_arg4) y
  rw [V_main_arg4]
  refine congrArg _ (funext fun a => Fin.ext ?_)
  match a with
  | ⟨0, _⟩ => show win0_3.index t (0 : Fin 1) * 128 + 1 * (y 0).val = (y 0).val; rw [e0]; omega

/-- The feature network's second-layer weights. -/
theorem iblk4_eq (c : Dev nD) (t : Fin cfg0.N) :
    (iblk m c 4 t : Vec Ideal S128x64 .f32) = m ((c : Thread nD τ).loc main_arg5) := by
  obtain ⟨-, -, -, e0, e1, -, -, -, -, -, -, -⟩ := idx_whole t
  funext (y : S128x64.Idx)
  unfold iblk
  rw [View.read_apply]
  show V m c main_arg5 _ = m ((c : Thread nD τ).loc main_arg5) y
  rw [V_main_arg5]
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega

/-- The feature network's second-layer bias. -/
theorem iblk5_eq (c : Dev nD) (t : Fin cfg0.N) :
    (iblk m c 5 t : Vec Ideal S64 .f32) = m ((c : Thread nD τ).loc main_arg6) := by
  obtain ⟨-, -, -, -, -, e0, -, -, -, -, -, -⟩ := idx_whole t
  funext (y : S64.Idx)
  unfold iblk
  rw [View.read_apply]
  show V m c main_arg6 _ = m ((c : Thread nD τ).loc main_arg6) y
  rw [V_main_arg6]
  refine congrArg _ (funext fun a => Fin.ext ?_)
  match a with
  | ⟨0, _⟩ => show win0_5.index t (0 : Fin 1) * 64 + 1 * (y 0).val = (y 0).val; rw [e0]; omega

/-- The position network's first-layer weights. -/
theorem iblk6_eq (c : Dev nD) (t : Fin cfg0.N) :
    (iblk m c 6 t : Vec Ideal S129x128 .f32) = m ((c : Thread nD τ).loc main_arg7) := by
  obtain ⟨-, -, -, -, -, -, e0, e1, -, -, -, -⟩ := idx_whole t
  funext (y : S129x128.Idx)
  unfold iblk
  rw [View.read_apply]
  show V m c main_arg7 _ = m ((c : Thread nD τ).loc main_arg7) y
  rw [V_main_arg7]
  refine congrArg _ (funext fun a => Fin.ext ?_)
  match a with
  | ⟨0, _⟩ => show win0_6.index t (0 : Fin 2) * 129 + 1 * (y 0).val = (y 0).val; rw [e0]; omega
  | ⟨1, _⟩ => show win0_6.index t (1 : Fin 2) * 128 + 1 * (y 1).val = (y 1).val; rw [e1]; omega

/-- The position network's first-layer bias. -/
theorem iblk7_eq (c : Dev nD) (t : Fin cfg0.N) :
    (iblk m c 7 t : Vec Ideal S128 .f32) = m ((c : Thread nD τ).loc main_arg8) := by
  obtain ⟨-, -, -, -, -, -, -, -, e0, -, -, -⟩ := idx_whole t
  funext (y : S128.Idx)
  unfold iblk
  rw [View.read_apply]
  show V m c main_arg8 _ = m ((c : Thread nD τ).loc main_arg8) y
  rw [V_main_arg8]
  refine congrArg _ (funext fun a => Fin.ext ?_)
  match a with
  | ⟨0, _⟩ => show win0_7.index t (0 : Fin 1) * 128 + 1 * (y 0).val = (y 0).val; rw [e0]; omega

/-- The position network's second-layer weights. -/
theorem iblk8_eq (c : Dev nD) (t : Fin cfg0.N) :
    (iblk m c 8 t : Vec Ideal S128x1 .f32) = m ((c : Thread nD τ).loc main_arg9) := by
  obtain ⟨-, -, -, -, -, -, -, -, -, e0, e1, -⟩ := idx_whole t
  funext (y : S128x1.Idx)
  unfold iblk
  rw [View.read_apply]
  show V m c main_arg9 _ = m ((c : Thread nD τ).loc main_arg9) y
  rw [V_main_arg9]
  refine congrArg _ (funext fun a => Fin.ext ?_)
  match a with
  | ⟨0, _⟩ => show win0_8.index t (0 : Fin 2) * 128 + 1 * (y 0).val = (y 0).val; rw [e0]; omega
  | ⟨1, _⟩ => show win0_8.index t (1 : Fin 2) * 1 + 1 * (y 1).val = (y 1).val; rw [e1]; omega

/-- The position network's second-layer bias. -/
theorem iblk9_eq (c : Dev nD) (t : Fin cfg0.N) :
    (iblk m c 9 t : Vec Ideal S1 .f32) = m ((c : Thread nD τ).loc main_arg10) := by
  obtain ⟨-, -, -, -, -, -, -, -, -, -, -, e0⟩ := idx_whole t
  funext (y : S1.Idx)
  unfold iblk
  rw [View.read_apply]
  show V m c main_arg10 _ = m ((c : Thread nD τ).loc main_arg10) y
  rw [V_main_arg10]
  refine congrArg _ (funext fun a => Fin.ext ?_)
  match a with
  | ⟨0, _⟩ => show win0_9.index t (0 : Fin 1) * 1 + 1 * (y 0).val = (y 0).val; rw [e0]; omega

/-! ## Rows of the two per-edge input blocks -/

/-- Row `r` of point `t`'s block of combined features is row `4000·t + r` of the reference's combined-feature array. -/
theorem rowC (c : Dev nD) (t : Fin cfg0.N) (r : Fin 4000) (e : Fin 800000) (he : e.val = t.val * 4000 + r.val) (k : Fin 129) :
    (iblk m c 0 t : Vec Ideal S4000x129 .f32) (ix2 r k)
      = Cert.ReferenceIdeal.ReadP.val_main_v36 (F := Ideal) (m ((c : Thread nD τ).loc main_arg0)) (m ((c : Thread nD τ).loc main_arg1)) (m ((c : Thread nD τ).loc main_arg2)) (ix2 e k) := by
  obtain ⟨e0, e1, -⟩ := idx_rows t
  unfold iblk
  rw [View.read_apply]
  show V m c main_v36 _ = _
  rw [V_combined]
  refine congrArg _ (funext fun a => Fin.ext ?_)
  match a with
  | ⟨0, _⟩ => show win0_0.index t (0 : Fin 2) * 4000 + 1 * r.val = e.val; rw [e0, he]; omega
  | ⟨1, _⟩ => show win0_0.index t (1 : Fin 2) * 129 + 1 * k.val = k.val; rw [e1]; omega

/-- Row `r` of point `t`'s block of relative positions is row `4000·t + r` of the reference's relative-position array. -/
theorem rowR (c : Dev nD) (t : Fin cfg0.N) (r : Fin 4000) (e : Fin 800000) (he : e.val = t.val * 4000 + r.val) (k : Fin 3) :
    (iblk m c 1 t : Vec Ideal S4000x3 .f32) (ix2 r k)
      = Cert.ReferenceIdeal.ReadP.val_main_v18 (F := Ideal) (m ((c : Thread nD τ).loc main_arg1)) (m ((c : Thread nD τ).loc main_arg2)) (ix2 e k) := by
  obtain ⟨-, -, e0, e1, -⟩ := idx_rows t
  unfold iblk
  rw [View.read_apply]
  show V m c main_v32 _ = _
  rw [V_relpos]
  refine congrArg _ (funext fun a => Fin.ext ?_)
  match a with
  | ⟨0, _⟩ => show win0_1.index t (0 : Fin 2) * 4000 + 1 * r.val = e.val; rw [e0, he]; omega
  | ⟨1, _⟩ => show win0_1.index t (1 : Fin 2) * 3 + 1 * k.val = k.val; rw [e1]; omega

/-! ## What a point writes back -/

/-- Point `t` writes back block `t` of the reference's message array. -/
theorem flushed_x (c : Dev nD) (t : Fin cfg0.N) :
    (dats m 0 c).flushed 10 t = ((cfg0.win 10).blk t).view.read (Elt Ideal)
      (Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 10).cut (grid0.coords t) ((dats m 0 c).after 10 t) = _
  rw [after0_10]
  unfold blockX outX
  rw [View.canon_unit_zero hz2]
  simp only [View.ld_unit_zero (S := S4000x129) hz2, View.ld_unit_zero (S := S129x128) hz2, View.ld_unit_zero (S := S128) hz1,
    View.ld_unit_zero (S := S128x64) hz2, View.ld_unit_zero (S := S64) hz1]
  rw [iblk2_eq, iblk3_eq, iblk4_eq, iblk5_eq]
  obtain ⟨-, -, -, -, e0, e1, -⟩ := idx_rows t
  have ht : t.val < 200 := t.isLt
  funext (j : S4000x64.Idx)
  obtain ⟨r, q, rfl⟩ : ∃ (r : Fin 4000) (q : Fin 64), j = ix2 r q := ⟨j 0, j 1, eq_ix2 j⟩
  rw [View.read_apply]
  show k0_pay4 (iblk m c 0 t) _ _ _ _ (ix2 r q) = Cert.ReferenceIdeal.ReadP.val_main_v45 (F := Ideal) _ _ _ _ _ _ _ (((cfg0.win 10).blk t).view.emb (ix2 r q))
  refine (Cert.EdgeMath.blockX_apply (m ((c : Thread nD τ).loc main_arg0)) (m ((c : Thread nD τ).loc main_arg1)) (m ((c : Thread nD τ).loc main_arg2)) _ _ _ _ (iblk m c 0 t) ⟨t.val * 4000 + r.val, by have := r.isLt; omega⟩ r
    (fun k => rowC m c t r _ rfl k) q).trans ?_
  refine congrArg _ (funext fun a => Fin.ext ?_)
  match a with
  | ⟨0, _⟩ => show t.val * 4000 + r.val = win0_10.index t (0 : Fin 2) * 4000 + 1 * r.val; rw [e0]; omega
  | ⟨1, _⟩ => show q.val = win0_10.index t (1 : Fin 2) * 64 + 1 * q.val; rw [e1]; omega

/-- Point `t` writes back block `t` of the reference's position-update array. -/
theorem flushed_p (c : Dev nD) (t : Fin cfg0.N) :
    (dats m 0 c).flushed 11 t = ((cfg0.win 11).blk t).view.read (Elt Ideal)
      (Cert.ReferenceIdeal.ReadP.val_main_v59 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10))) := by
  show (cfg0.win 11).cut (grid0.coords t) ((dats m 0 c).after 11 t) = _
  rw [after0_11]
  unfold blockP outP
  rw [View.canon_unit_zero hz2]
  simp only [View.ld_unit_zero (S := S4000x129) hz2, View.ld_unit_zero (S := S4000x3) hz2, View.ld_unit_zero (S := S129x128) hz2,
    View.ld_unit_zero (S := S128) hz1, View.ld_unit_zero (S := S128x1) hz2, View.ld_unit_zero (S := S1) hz1]
  rw [iblk6_eq, iblk7_eq, iblk8_eq, iblk9_eq]
  obtain ⟨-, -, -, -, -, -, e0, e1⟩ := idx_rows t
  have ht : t.val < 200 := t.isLt
  funext (j : S4000x3.Idx)
  obtain ⟨r, q, rfl⟩ : ∃ (r : Fin 4000) (q : Fin 3), j = ix2 r q := ⟨j 0, j 1, eq_ix2 j⟩
  rw [View.read_apply]
  show k0_pay1 (k0_pay2 (iblk m c 1 t)) (k0_pay5 (iblk m c 0 t) _ _ _) _ (ix2 r q) = Cert.ReferenceIdeal.ReadP.val_main_v59 (F := Ideal) _ _ _ _ _ _ _ (((cfg0.win 11).blk t).view.emb (ix2 r q))
  refine (Cert.EdgeMath.blockP_apply (m ((c : Thread nD τ).loc main_arg0)) (m ((c : Thread nD τ).loc main_arg1)) (m ((c : Thread nD τ).loc main_arg2)) _ _ _ _ (iblk m c 0 t) (iblk m c 1 t) ⟨t.val * 4000 + r.val, by have := r.isLt; omega⟩ r
    (fun k => rowC m c t r _ rfl k) (fun k => rowR m c t r _ rfl k) q).trans ?_
  refine congrArg _ (funext fun a => Fin.ext ?_)
  match a with
  | ⟨0, _⟩ => show t.val * 4000 + r.val = win0_11.index t (0 : Fin 2) * 4000 + 1 * r.val; rw [e0]; omega
  | ⟨1, _⟩ => show q.val = win0_11.index t (1 : Fin 2) * 3 + 1 * q.val; rw [e1]; omega

/-! ## The points' blocks tile the rows -/

/-- A row index lies in point `t`'s block of the message array iff each coordinate lies in the block's range. -/
theorem mem_blk_x (t : Fin cfg0.N) (i : S800000x64.Idx) :
    i ∈ ((cfg0.win 10).blk t).view.set ↔ ∀ a : Fin 2, win0_10.index t a * S4000x64.size a ≤ (i a).val ∧ (i a).val < win0_10.index t a * S4000x64.size a + S4000x64.size a := by
  show i ∈ ((View.whole main_v37_0).slice (win0_10.rect t)).set ↔ _
  rw [View.set_slice_whole, Rect.mem_set_unit]
  exact Iff.rfl

/-- The same for the position-update array. -/
theorem mem_blk_p (t : Fin cfg0.N) (i : S800000x3.Idx) :
    i ∈ ((cfg0.win 11).blk t).view.set ↔ ∀ a : Fin 2, win0_11.index t a * S4000x3.size a ≤ (i a).val ∧ (i a).val < win0_11.index t a * S4000x3.size a + S4000x3.size a := by
  show i ∈ ((View.whole main_v37_1).slice (win0_11.rect t)).set ↔ _
  rw [View.set_slice_whole, Rect.mem_set_unit]
  exact Iff.rfl

/-- Row `i` of the message array lies in the block of point `⌊i / 4000⌋`, which writes back. -/
theorem cover_x (i : S800000x64.Idx) :
    ∃ t : Fin cfg0.N, (cfg0.win 10).flush t = true ∧ i ∈ ((cfg0.win 10).blk t).view.set := by
  have h0 : (i 0).val < 800000 := (i 0).isLt
  have h1 : (i 1).val < 64 := (i 1).isLt
  obtain ⟨t, ht⟩ : ∃ t : Fin cfg0.N, t.val = (i 0).val / 4000 := ⟨⟨(i 0).val / 4000, by show _ < 200; omega⟩, rfl⟩
  obtain ⟨-, -, -, -, e0, e1, -⟩ := idx_rows t
  refine ⟨t, flush0_10 t, ?_⟩
  rw [mem_blk_x]
  intro a
  match a with
  | ⟨0, _⟩ => show win0_10.index t (0 : Fin 2) * 4000 ≤ (i 0).val ∧ (i 0).val < win0_10.index t (0 : Fin 2) * 4000 + 4000; rw [e0, ht]; omega
  | ⟨1, _⟩ => show win0_10.index t (1 : Fin 2) * 64 ≤ (i 1).val ∧ (i 1).val < win0_10.index t (1 : Fin 2) * 64 + 64; rw [e1]; omega

/-- The same for the position-update array. -/
theorem cover_p (i : S800000x3.Idx) :
    ∃ t : Fin cfg0.N, (cfg0.win 11).flush t = true ∧ i ∈ ((cfg0.win 11).blk t).view.set := by
  have h0 : (i 0).val < 800000 := (i 0).isLt
  have h1 : (i 1).val < 3 := (i 1).isLt
  obtain ⟨t, ht⟩ : ∃ t : Fin cfg0.N, t.val = (i 0).val / 4000 := ⟨⟨(i 0).val / 4000, by show _ < 200; omega⟩, rfl⟩
  obtain ⟨-, -, -, -, -, -, e0, e1⟩ := idx_rows t
  refine ⟨t, flush0_11 t, ?_⟩
  rw [mem_blk_p]
  intro a
  match a with
  | ⟨0, _⟩ => show win0_11.index t (0 : Fin 2) * 4000 ≤ (i 0).val ∧ (i 0).val < win0_11.index t (0 : Fin 2) * 4000 + 4000; rw [e0, ht]; omega
  | ⟨1, _⟩ => show win0_11.index t (1 : Fin 2) * 3 ≤ (i 1).val ∧ (i 1).val < win0_11.index t (1 : Fin 2) * 3 + 3; rw [e1]; omega

/-! ## The two arrays after the run -/

/-- The message array after the run is the reference's per-edge message array of the launch contents. -/
theorem final_x (c : Dev nD) :
    (dats m 0 c).arrAt 10 cfg0.N
      = Cert.ReferenceIdeal.ReadP.val_main_v45 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  (dats m 0 c).arrAt_eq_of_cover 10 _ (fun t _ => flushed_x m c t) cover_x

/-- The position-update array after the run is the reference's per-edge position-update array. -/
theorem final_p (c : Dev nD) :
    (dats m 0 c).arrAt 11 cfg0.N
      = Cert.ReferenceIdeal.ReadP.val_main_v59 (F := Ideal) (m ((c : Thread nD τ).loc main_arg0)) (m ((c : Thread nD τ).loc main_arg1))
          (m ((c : Thread nD τ).loc main_arg2)) (m ((c : Thread nD τ).loc main_arg7)) (m ((c : Thread nD τ).loc main_arg8))
          (m ((c : Thread nD τ).loc main_arg9)) (m ((c : Thread nD τ).loc main_arg10)) :=
  (dats m 0 c).arrAt_eq_of_cover 11 _ (fun t _ => flushed_p m c t) cover_p

end Cert.KernelIdeal.Fr

end
-- ==== Proof.NamedRunKI.lean ====
import proofs.«146068_j82867099009204_1_alg».proof.Proof.FinalKI

/-! # The idealized kernel program's run, with both results named

Every weakly fair execution of the idealized kernel program terminates without a fault; its first result is the
reference's per-edge message array scatter-added by target node into zeros, its second the reference's per-edge
position-update array scatter-added likewise, and its argument arrays end unchanged. Over the extended reals. -/

noncomputable section

namespace Cert.KernelIdeal.Fr

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The first result as a function of the launch contents. -/
abbrev resX (c : Dev nD) : Buf (Elt Ideal) ((c.tc : Thread nD τ).loc main_v40) :=
  scatX (m ((c : Thread nD τ).loc main_arg2))
    (Cert.ReferenceIdeal.ReadP.val_main_v45 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)))
/-- The second result as a function of the launch contents. -/
abbrev resP (c : Dev nD) : Buf (Elt Ideal) ((c.tc : Thread nD τ).loc main_v43) :=
  scatP (m ((c : Thread nD τ).loc main_arg2))
    (Cert.ReferenceIdeal.ReadP.val_main_v59 (F := Ideal) (m ((c : Thread nD τ).loc main_arg0)) (m ((c : Thread nD τ).loc main_arg1))
      (m ((c : Thread nD τ).loc main_arg2)) (m ((c : Thread nD τ).loc main_arg7)) (m ((c : Thread nD τ).loc main_arg8))
      (m ((c : Thread nD τ).loc main_arg9)) (m ((c : Thread nD τ).loc main_arg10)))

theorem run_named : θ_run defs (onTc (τ := τ) (main (F := Ideal))) ⟨m, fun _ => 0, ρ⟩ (fun r => ∀ c : Dev nD,
      r.2.mem ((c.tc : Thread nD τ).loc main_v40) = resX m c
      ∧ r.2.mem ((c.tc : Thread nD τ).loc main_v43) = resP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_v40 (Pipeline.mem_restRefs_of main_v40 (by decide) (by decide))).trans
      ((tail_x m c).trans (congrArg (scatX (m ((c : Thread nD τ).loc main_arg2))) (final_x m c))),
    ((h c).2 main_v43 (Pipeline.mem_restRefs_of main_v43 (by decide) (by decide))).trans
      ((tail_p m c).trans (congrArg (scatP (m ((c : Thread nD τ).loc main_arg2))) (final_p m c))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c))),
    ((h c).1 6).trans (((dats m 0 c).arrAt_in 6 rfl _).trans ((A_eq m c 6).trans (V_main_arg7 m c))),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c))),
    ((h c).1 9).trans (((dats m 0 c).arrAt_in 9 rfl _).trans ((A_eq m c 9).trans (V_main_arg10 m c)))⟩)
    (run_main m ρ)

end Cert.KernelIdeal.Fr

end
-- ==== Proof.lean ====
/- The edge network of a graph layer: a Pallas kernel against its jnp reference.

   Both programs gather the node features and positions at the two ends of each of 800000 edges, form the relative
   position and its squared length, and join them into 129 combined features per edge. On those, two small networks
   (Linear → SiLU → Linear) give a 64-wide feature message and a scalar that scales the relative position into a
   position update; both per-edge arrays are scatter-added by target node. The reference runs the two networks as whole
   host matrix products; the kernel runs them in a pipelined region over 200 blocks of 4000 edges.

   Over the extended reals the two agree edge by edge: a change of float format is the identity, a matrix product into
   a zero accumulator is the plain sum, the logistic function is 1 / (1 + exp (−u)) on both sides, and row r of block t
   is edge 4000·t + r. The sums are over the same index sets in the same order, so the precondition (finite inputs) is
   never opened. The three frames: the two kernel programs by the pipeline's frame run with the body's triple at every
   grid point (Proof/FrameKit…, Body…, Run…), the reference by its run read back. The ideal pass rewrote nothing, so
   `preserves` is trivial. -/
import proofs.«146068_j82867099009204_1_alg».proof.Defs
import proofs.«146068_j82867099009204_1_alg».proof.Proof.Gen.Kernel
import proofs.«146068_j82867099009204_1_alg».proof.Proof.Gen.KernelIdeal
import proofs.«146068_j82867099009204_1_alg».proof.Proof.Gen.ReferenceIdeal
import proofs.«146068_j82867099009204_1_alg».proof.Proof.Gen.Pre_finite_inputs
import proofs.«146068_j82867099009204_1_alg».proof.Proof.RunK
import proofs.«146068_j82867099009204_1_alg».proof.Proof.NamedRunKI
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Fr.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference is host operations only: its run read back, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories that agree on the arguments both idealized programs end with the same two results: each is the
    scatter-addition by target node of the reference's per-edge array of the (shared) launch contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨Cert.KernelIdeal.Fr.resX m, Cert.KernelIdeal.Fr.resP m, Cert.KernelIdeal.Fr.run_named m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v48_eq, (hagree c).1, (hagree c).2.1, (hagree c).2.2.1, (hagree c).2.2.2.1,
      (hagree c).2.2.2.2.1, (hagree c).2.2.2.2.2.1, (hagree c).2.2.2.2.2.2.1]
    exact Cert.KernelIdeal.Fr.ref_x _ _ _ _ _ _ _
  · rw [Cert.ReferenceIdeal.ReadP.val_main_v62_eq, (hagree c).1, (hagree c).2.1, (hagree c).2.2.1,
      (hagree c).2.2.2.2.2.2.2.1, (hagree c).2.2.2.2.2.2.2.2.1, (hagree c).2.2.2.2.2.2.2.2.2.1, (hagree c).2.2.2.2.2.2.2.2.2.2]
    exact Cert.KernelIdeal.Fr.ref_p _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
